-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x64 : Shape := ⟨4, ![8, 256, 256, 64]⟩
abbrev S192x64 : Shape := ⟨2, ![192, 64]⟩
abbrev S192 : Shape := ⟨1, ![192]⟩
abbrev S1x8x64x64 : Shape := ⟨4, ![1, 8, 64, 64]⟩
abbrev S_ : Shape := ⟨0, ![]⟩

class Facts : Prop where
  bcast_S_S8x256x256x64 : S_.BroadcastsInDim S8x256x256x64 (![] : Fin 0 → Fin S8x256x256x64.rank)
  reducesTo_S8x256x256x64_S_d0_1_2_3 : S8x256x256x64.ReducesTo [0, 1, 2, 3] S_
  h_S_ : 0 < S_.numel
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S1x8x64x64 : S_.BroadcastsInDim S1x8x64x64 (![] : Fin 0 → Fin S1x8x64x64.rank)
  reducesTo_S1x8x64x64_S_d0_1_2_3 : S1x8x64x64.ReducesTo [0, 1, 2, 3] S_

variable [Facts]

def fn_part1 {F : FTy → Type} [FloatOps F] (main_v13 : IVec S_ 1) (main_v16 : IVec S1x8x64x64 1) : IVec S_ 1 :=
  let main_c_5 : IVec S_ 1 := constantI S_ 1 1#1
  let main_v17 : IVec S_ 1 := (fun x v => Host.reduce IntOp.andi x v reducesTo_S1x8x64x64_S_d0_1_2_3 h_S_) main_v16 main_c_5
  let main_v18 : IVec S_ 1 := andi main_v13 main_v17
  main_v18

def fn {F : FTy → Type} [FloatOps F] (main_arg0 : FVec F S8x256x256x64 .f32) (main_arg1 : FVec F S192x64 .f32) (main_arg2 : FVec F S192 .f32) (main_arg3 : FVec F S1x8x64x64 .f32) : IVec S_ 1 :=
  let main_v0 : FVec F S8x256x256x64 .f32 := Host.absf main_arg0
  let main_cst : FVec F S_ .f32 := constant S_ .f32 0x7F800000#32
  let main_v1 : FVec F S8x256x256x64 .f32 := broadcastInDim S8x256x256x64 ![] bcast_S_S8x256x256x64 main_cst
  let main_v2 : IVec S8x256x256x64 1 := cmpf .olt main_v0 main_v1
  let main_c : IVec S_ 1 := constantI S_ 1 1#1
  let main_v3 : IVec S_ 1 := (fun x v => Host.reduce IntOp.andi x v reducesTo_S8x256x256x64_S_d0_1_2_3 h_S_) main_v2 main_c
  let main_v4 : FVec F S192x64 .f32 := Host.absf main_arg1
  let main_cst_0 : FVec F S_ .f32 := constant S_ .f32 0x7F800000#32
  let main_v5 : FVec F S192x64 .f32 := broadcastInDim S192x64 ![] bcast_S_S192x64 main_cst_0
  let main_v6 : IVec S192x64 1 := cmpf .olt main_v4 main_v5
  let main_c_1 : IVec S_ 1 := constantI S_ 1 1#1
  let main_v7 : IVec S_ 1 := (fun x v => Host.reduce IntOp.andi x v reducesTo_S192x64_S_d0_1 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S1x8x64x64 .f32 := Host.absf main_arg3
  let main_cst_4 : FVec F S_ .f32 := constant S_ .f32 0x7F800000#32
  let main_v15 : FVec F S1x8x64x64 .f32 := broadcastInDim S1x8x64x64 ![] bcast_S_S1x8x64x64 main_cst_4
  let main_v16 : IVec S1x8x64x64 1 := cmpf .olt main_v14 main_v15
  fn_part1 (F := F) main_v13 main_v16
-- ==== Kernel.lean ====
abbrev S8x256x256x64 : Shape := ⟨4, ![8, 256, 256, 64]⟩
abbrev S192x64 : Shape := ⟨2, ![192, 64]⟩
abbrev S192 : Shape := ⟨1, ![192]⟩
abbrev S1x8x64x64 : Shape := ⟨4, ![1, 8, 64, 64]⟩
abbrev S8x64 : Shape := ⟨2, ![8, 64]⟩
abbrev S64x64 : Shape := ⟨2, ![64, 64]⟩
abbrev S64 : Shape := ⟨1, ![64]⟩
abbrev S8x64x64 : Shape := ⟨3, ![8, 64, 64]⟩
abbrev S8192x64x64 : Shape := ⟨3, ![8192, 64, 64]⟩
abbrev S1x16x256x64 : Shape := ⟨4, ![1, 16, 256, 64]⟩
abbrev S64x64x64 : Shape := ⟨3, ![64, 64, 64]⟩
abbrev S1x8x256x64 : Shape := ⟨4, ![1, 8, 256, 64]⟩
abbrev S8x256x64 : Shape := ⟨3, ![8, 256, 64]⟩
abbrev S8x32x8x64 : Shape := ⟨4, ![8, 32, 8, 64]⟩
abbrev S32x8x8x64 : Shape := ⟨4, ![32, 8, 8, 64]⟩
abbrev S32x64x64 : Shape := ⟨3, ![32, 64, 64]⟩
abbrev S4096x64 : Shape := ⟨2, ![4096, 64]⟩
abbrev S1x64 : Shape := ⟨2, ![1, 64]⟩
abbrev S1x1x64 : Shape := ⟨3, ![1, 1, 64]⟩
abbrev S1x64x64 : Shape := ⟨3, ![1, 64, 64]⟩
abbrev S64x64x1 : Shape := ⟨3, ![64, 64, 1]⟩

abbrev nBuf : Space → Nat
  | .hbm => 19
  | .vmem => 12
  | .smem => 0
  | _ => 0

abbrev bufTy : (tb : Table) → Fin (tcTables nBuf tb) → BufTy
  | .hbm, ⟨0, _⟩ => ⟨S8x256x256x64, .f32⟩
  | .hbm, ⟨1, _⟩ => ⟨S192x64, .f32⟩
  | .hbm, ⟨2, _⟩ => ⟨S192, .f32⟩
  | .hbm, ⟨3, _⟩ => ⟨S1x8x64x64, .f32⟩
  | .hbm, ⟨4, _⟩ => ⟨S8x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .bf16⟩
  | .hbm, ⟨10, _⟩ => ⟨S64x64, .f32⟩
  | .hbm, ⟨11, _⟩ => ⟨S64x64, .bf16⟩
  | .hbm, ⟨12, _⟩ => ⟨S64x64, .f32⟩
  | .hbm, ⟨13, _⟩ => ⟨S64x64, .bf16⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S8x64x64, .f32⟩
  | .hbm, ⟨18, _⟩ => ⟨S8192x64x64, .f32⟩
  | .local _ .vmem, ⟨0, _⟩ => ⟨S1x16x256x64, .f32⟩
  | .local _ .vmem, ⟨1, _⟩ => ⟨S1x16x256x64, .f32⟩
  | .local _ .vmem, ⟨2, _⟩ => ⟨S64x64, .bf16⟩
  | .local _ .vmem, ⟨3, _⟩ => ⟨S64x64, .bf16⟩
  | .local _ .vmem, ⟨4, _⟩ => ⟨S64x64, .bf16⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S8x64x64, .f32⟩
  | .local _ .vmem, ⟨9, _⟩ => ⟨S8x64, .f32⟩
  | .local _ .vmem, ⟨10, _⟩ => ⟨S64x64x64, .f32⟩
  | .local _ .vmem, ⟨11, _⟩ => ⟨S64x64x64, .f32⟩
  | _, _ => ⟨S8x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S192x64_S64x64_0_0 : S192x64.Slices ![0, 0] S64x64
  slices_S192x64_S64x64_64_0 : S192x64.Slices ![64, 0] S64x64
  slices_S192x64_S64x64_128_0 : S192x64.Slices ![128, 0] S64x64
  transposes_S64x64_S64x64_1_0 : S64x64.Transposes [1, 0] S64x64
  bitsLt_bf16_f32 : FTy.bits .bf16 < FTy.bits .f32
  slices_S192_S64_0 : S192.Slices ![0] S64
  slices_S192_S64_64 : S192.Slices ![64] S64
  slices_S192_S64_128 : S192.Slices ![128] S64
  shapeCasts_S1x8x64x64_S8x64x64 : S1x8x64x64.ShapeCasts S8x64x64
  inb_S1x16x256x64_S1x8x256x64_0_0_0_0 : ∀ a, (![0, 0, 0, 0] : Fin 4 → Nat) a + S1x8x256x64.size a ≤ S1x16x256x64.size a
  h_S1x8x256x64 : 0 < S1x8x256x64.numel
  shapeCasts_S1x8x256x64_S8x256x64 : S1x8x256x64.ShapeCasts S8x256x64
  inb_S1x16x256x64_S1x8x256x64_0_8_0_0 : ∀ a, (![0, 8, 0, 0] : Fin 4 → Nat) a + S1x8x256x64.size a ≤ S1x16x256x64.size a
  shapeCasts_S8x256x64_S8x32x8x64 : S8x256x64.ShapeCasts S8x32x8x64
  transposes_S8x32x8x64_p1_0_2_3_S32x8x8x64 : S8x32x8x64.Transposes [1, 0, 2, 3] S32x8x8x64
  shapeCasts_S32x8x8x64_S32x64x64 : S32x8x8x64.ShapeCasts S32x64x64
  concatenates_S32x64x64_S32x64x64_S64x64x64_d0 : Shape.Concatenates [S32x64x64, S32x64x64] S64x64x64 0
  shapeCasts_S64x64x64_S4096x64 : S64x64x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S4096x64 : S1x64.Broadcasts S4096x64
  shapeCasts_S4096x64_S64x64x64 : S4096x64.ShapeCasts S64x64x64
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  inb_S8x64_S8x64_0_0 : ∀ a, (![0, 0] : Fin 2 → Nat) a + S8x64.size a ≤ S8x64.size a
  h_S8x64 : 0 < S8x64.numel
  slices_S8x64_o0_0_S1x64 : S8x64.Slices ![0, 0] S1x64
  shapeCasts_S1x64_S64 : S1x64.ShapeCasts S64
  shapeCasts_S64_S1x1x64 : S64.ShapeCasts S1x1x64
  broadcasts_S1x1x64_S64x64x64 : S1x1x64.Broadcasts S64x64x64
  slices_S8x64x64_o0_0_0_S1x64x64 : S8x64x64.Slices ![0, 0, 0] S1x64x64
  shapeCasts_S1x64x64_S64x64 : S1x64x64.ShapeCasts S64x64
  shapeCasts_S64x64_S1x64x64 : S64x64.ShapeCasts S1x64x64
  broadcasts_S1x64x64_S64x64x64 : S1x64x64.Broadcasts S64x64x64
  reduces_S64x64x64_S64x64 : S64x64x64.Reduces [2] S64x64
  shapeCasts_S64x64_S64x64x1 : S64x64.ShapeCasts S64x64x1
  broadcasts_S64x64x1_S64x64x64 : S64x64x1.Broadcasts S64x64x64
  slices_S8x64_o1_0_S1x64 : S8x64.Slices ![1, 0] S1x64
  slices_S8x64x64_o1_0_0_S1x64x64 : S8x64x64.Slices ![1, 0, 0] S1x64x64
  slices_S8x64_o2_0_S1x64 : S8x64.Slices ![2, 0] S1x64
  slices_S8x64x64_o2_0_0_S1x64x64 : S8x64x64.Slices ![2, 0, 0] S1x64x64
  slices_S8x64_o3_0_S1x64 : S8x64.Slices ![3, 0] S1x64
  slices_S8x64x64_o3_0_0_S1x64x64 : S8x64x64.Slices ![3, 0, 0] S1x64x64
  slices_S8x64_o4_0_S1x64 : S8x64.Slices ![4, 0] S1x64
  slices_S8x64x64_o4_0_0_S1x64x64 : S8x64x64.Slices ![4, 0, 0] S1x64x64
  slices_S8x64_o5_0_S1x64 : S8x64.Slices ![5, 0] S1x64
  slices_S8x64x64_o5_0_0_S1x64x64 : S8x64x64.Slices ![5, 0, 0] S1x64x64
  slices_S8x64_o6_0_S1x64 : S8x64.Slices ![6, 0] S1x64
  slices_S8x64x64_o6_0_0_S1x64x64 : S8x64x64.Slices ![6, 0, 0] S1x64x64
  slices_S8x64_o7_0_S1x64 : S8x64.Slices ![7, 0] S1x64
  slices_S8x64x64_o7_0_0_S1x64x64 : S8x64x64.Slices ![7, 0, 0] S1x64x64
  inb_S64x64x64_S64x64x64_0_0_0 : ∀ a, (![0, 0, 0] : Fin 3 → Nat) a + S64x64x64.size a ≤ S64x64x64.size a
  h_S64x64x64 : 0 < S64x64x64.numel
  dot_S4096x64_S64x64_S4096x64_1_0_0_1_n_n_wf : DotDims.WF S4096x64 S64x64 S4096x64 [1] [0] [0] [1] [] []
  dot_S64x64x64_S64x64x64_S64x64x64_2_2_1_1_0_0_wf : DotDims.WF S64x64x64 S64x64x64 S64x64x64 [2] [2] [1] [1] [0] [0]
  dot_S64x64x64_S64x64x64_S64x64x64_2_1_1_2_0_0_wf : DotDims.WF S64x64x64 S64x64x64 S64x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x64.size a ≤ S8x256x256x64.size a
  hwx0_0 : ∀ i : grid0.Coords, EltTy.bits .f32 = 32 ∨ (Rect.block (s := S8x256x256x64) S1x16x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x64x64.size a ≤ S8x64x64.size a
  hwx0_7 : ∀ i : grid0.Coords, EltTy.bits .f32 = 32 ∨ (Rect.block (s := S8x64x64) S8x64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x64.size a ≤ S8x64.size a
  hwx0_8 : ∀ i : grid0.Coords, EltTy.bits .f32 = 32 ∨ (Rect.block (s := S8x64) S8x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x64x64.size a ≤ S8192x64x64.size a
  hwx0_9 : ∀ i : grid0.Coords, EltTy.bits .f32 = 32 ∨ (Rect.block (s := S8192x64x64) S64x64x64.size (cc0_transform_9 i) (hinb0_9 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S64x64x64_S64x64x64_S64x64x64_2_2_1_1_0_0 : DotDims S64x64x64 S64x64x64 S64x64x64 where
  lhsContracting := [2]
  rhsContracting := [2]
  lhsNonContracting := [1]
  rhsNonContracting := [1]
  lhsBatch := [0]
  rhsBatch := [0]
  wf := dot_S64x64x64_S64x64x64_S64x64x64_2_2_1_1_0_0_wf
def dot_S64x64x64_S64x64x64_S64x64x64_2_1_1_2_0_0 : DotDims S64x64x64 S64x64x64 S64x64x64 where
  lhsContracting := [2]
  rhsContracting := [1]
  lhsNonContracting := [1]
  rhsNonContracting := [2]
  lhsBatch := [0]
  rhsBatch := [0]
  wf := dot_S64x64x64_S64x64x64_S64x64x64_2_1_1_2_0_0_wf

abbrev win0_0 : Pipeline.Window sig grid0 :=
  Pipeline.Window.ofSpec (Memref.whole main_arg0) S1x16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S8x64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_cst) S8x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S64x64x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x256x256x64 : Shape := ⟨4, ![8, 256, 256, 64]⟩
abbrev S192x64 : Shape := ⟨2, ![192, 64]⟩
abbrev S192 : Shape := ⟨1, ![192]⟩
abbrev S1x8x64x64 : Shape := ⟨4, ![1, 8, 64, 64]⟩
abbrev S8x32x8x32x8x64 : Shape := ⟨6, ![8, 32, 8, 32, 8, 64]⟩
abbrev S8x32x32x8x8x64 : Shape := ⟨6, ![8, 32, 32, 8, 8, 64]⟩
abbrev S8x1024x64x64 : Shape := ⟨4, ![8, 1024, 64, 64]⟩
abbrev S8x1024x64x192 : Shape := ⟨4, ![8, 1024, 64, 192]⟩
abbrev S1x1x1x192 : Shape := ⟨4, ![1, 1, 1, 192]⟩
abbrev S8x1024x64x8x8 : Shape := ⟨5, ![8, 1024, 64, 8, 8]⟩
abbrev S8x1024x8x64x8 : Shape := ⟨5, ![8, 1024, 8, 64, 8]⟩
abbrev S_ : Shape := ⟨0, ![]⟩
abbrev S8x1024x8x64x64 : Shape := ⟨5, ![8, 1024, 8, 64, 64]⟩
abbrev S8x64x64 : Shape := ⟨3, ![8, 64, 64]⟩
abbrev S1x1x8x64x64 : Shape := ⟨5, ![1, 1, 8, 64, 64]⟩
abbrev S8x1024x8x64 : Shape := ⟨4, ![8, 1024, 8, 64]⟩
abbrev S8x1024x8x64x1 : Shape := ⟨5, ![8, 1024, 8, 64, 1]⟩
abbrev S8192x64x64 : Shape := ⟨3, ![8192, 64, 64]⟩

abbrev nBuf : Space → Nat
  | .hbm => 45
  | .vmem => 0
  | .smem => 0
  | _ => 0

abbrev bufTy : (tb : Table) → Fin (tcTables nBuf tb) → BufTy
  | .hbm, ⟨0, _⟩ => ⟨S8x256x256x64, .f32⟩
  | .hbm, ⟨1, _⟩ => ⟨S192x64, .f32⟩
  | .hbm, ⟨2, _⟩ => ⟨S192, .f32⟩
  | .hbm, ⟨3, _⟩ => ⟨S1x8x64x64, .f32⟩
  | .hbm, ⟨4, _⟩ => ⟨S8x32x8x32x8x64, .f32⟩
  | .hbm, ⟨5, _⟩ => ⟨S8x32x32x8x8x64, .f32⟩
  | .hbm, ⟨6, _⟩ => ⟨S8x1024x64x64, .f32⟩
  | .hbm, ⟨7, _⟩ => ⟨S8x1024x64x192, .f32⟩
  | .hbm, ⟨8, _⟩ => ⟨S1x1x1x192, .f32⟩
  | .hbm, ⟨9, _⟩ => ⟨S8x1024x64x192, .f32⟩
  | .hbm, ⟨10, _⟩ => ⟨S8x1024x64x192, .f32⟩
  | .hbm, ⟨11, _⟩ => ⟨S8x1024x64x64, .f32⟩
  | .hbm, ⟨12, _⟩ => ⟨S8x1024x64x64, .f32⟩
  | .hbm, ⟨13, _⟩ => ⟨S8x1024x64x64, .f32⟩
  | .hbm, ⟨14, _⟩ => ⟨S8x1024x64x8x8, .f32⟩
  | .hbm, ⟨15, _⟩ => ⟨S8x1024x8x64x8, .f32⟩
  | .hbm, ⟨16, _⟩ => ⟨S8x1024x64x8x8, .f32⟩
  | .hbm, ⟨17, _⟩ => ⟨S8x1024x8x64x8, .f32⟩
  | .hbm, ⟨18, _⟩ => ⟨S8x1024x64x8x8, .f32⟩
  | .hbm, ⟨19, _⟩ => ⟨S8x1024x8x64x8, .f32⟩
  | .hbm, ⟨20, _⟩ => ⟨S_, .f32⟩
  | .hbm, ⟨21, _⟩ => ⟨S8x1024x8x64x8, .f32⟩
  | .hbm, ⟨22, _⟩ => ⟨S8x1024x8x64x8, .f32⟩
  | .hbm, ⟨23, _⟩ => ⟨S8x1024x8x64x64, .f32⟩
  | .hbm, ⟨24, _⟩ => ⟨S8x64x64, .f32⟩
  | .hbm, ⟨25, _⟩ => ⟨S1x1x8x64x64, .f32⟩
  | .hbm, ⟨26, _⟩ => ⟨S8x1024x8x64x64, .f32⟩
  | .hbm, ⟨27, _⟩ => ⟨S8x1024x8x64x64, .f32⟩
  | .hbm, ⟨28, _⟩ => ⟨S_, .f32⟩
  | .hbm, ⟨29, _⟩ => ⟨S8x1024x8x64, .f32⟩
  | .hbm, ⟨30, _⟩ => ⟨S_, .f32⟩
  | .hbm, ⟨31, _⟩ => ⟨S8x1024x8x64, .f32⟩
  | .hbm, ⟨32, _⟩ => ⟨S8x1024x8x64, .f32⟩
  | .hbm, ⟨33, _⟩ => ⟨S8x1024x8x64x1, .f32⟩
  | .hbm, ⟨34, _⟩ => ⟨S8x1024x8x64x64, .f32⟩
  | .hbm, ⟨35, _⟩ => ⟨S8x1024x8x64x64, .f32⟩
  | .hbm, ⟨36, _⟩ => ⟨S8x1024x8x64x64, .f32⟩
  | .hbm, ⟨37, _⟩ => ⟨S_, .f32⟩
  | .hbm, ⟨38, _⟩ => ⟨S8x1024x8x64, .f32⟩
  | .hbm, ⟨39, _⟩ => ⟨S8x1024x8x64x1, .f32⟩
  | .hbm, ⟨40, _⟩ => ⟨S8x1024x8x64x64, .f32⟩
  | .hbm, ⟨41, _⟩ => ⟨S8x1024x8x64x64, .f32⟩
  | .hbm, ⟨42, _⟩ => ⟨S8x1024x8x64x8, .f32⟩
  | .hbm, ⟨43, _⟩ => ⟨S8x1024x64x8x8, .f32⟩
  | .hbm, ⟨44, _⟩ => ⟨S8192x64x64, .f32⟩
  | _, _ => ⟨S8x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]

class Facts₀ : Prop where
  shapeCasts_S8x256x256x64_S8x32x8x32x8x64 : S8x256x256x64.ShapeCasts S8x32x8x32x8x64
  transposes_S8x32x8x32x8x64_S8x32x32x8x8x64_0_1_3_2_4_5 : S8x32x8x32x8x64.Transposes [0, 1, 3, 2, 4, 5] S8x32x32x8x8x64
  shapeCasts_S8x32x32x8x8x64_S8x1024x64x64 : S8x32x32x8x8x64.ShapeCasts S8x1024x64x64
  bcast_S192_S1x1x1x192_3 : S192.BroadcastsInDim S1x1x1x192 (![3] : Fin 1 → Fin S1x1x1x192.rank)
  bcast_S1x1x1x192_S8x1024x64x192_0_1_2_3 : S1x1x1x192.BroadcastsInDim S8x1024x64x192 (![0, 1, 2, 3] : Fin 4 → Fin S8x1024x64x192.rank)
  slices_S8x1024x64x192_S8x1024x64x64_0_0_0_0 : S8x1024x64x192.Slices ![0, 0, 0, 0] S8x1024x64x64
  slices_S8x1024x64x192_S8x1024x64x64_0_0_0_64 : S8x1024x64x192.Slices ![0, 0, 0, 64] S8x1024x64x64
  slices_S8x1024x64x192_S8x1024x64x64_0_0_0_128 : S8x1024x64x192.Slices ![0, 0, 0, 128] S8x1024x64x64
  shapeCasts_S8x1024x64x64_S8x1024x64x8x8 : S8x1024x64x64.ShapeCasts S8x1024x64x8x8
  transposes_S8x1024x64x8x8_S8x1024x8x64x8_0_1_3_2_4 : S8x1024x64x8x8.Transposes [0, 1, 3, 2, 4] S8x1024x8x64x8
  bcast_S_S8x1024x8x64x8 : S_.BroadcastsInDim S8x1024x8x64x8 (![] : Fin 0 → Fin S8x1024x8x64x8.rank)
  shapeCasts_S1x8x64x64_S8x64x64 : S1x8x64x64.ShapeCasts S8x64x64
  bcast_S8x64x64_S1x1x8x64x64_2_3_4 : S8x64x64.BroadcastsInDim S1x1x8x64x64 (![2, 3, 4] : Fin 3 → Fin S1x1x8x64x64.rank)
  bcast_S1x1x8x64x64_S8x1024x8x64x64_0_1_2_3_4 : S1x1x8x64x64.BroadcastsInDim S8x1024x8x64x64 (![0, 1, 2, 3, 4] : Fin 5 → Fin S8x1024x8x64x64.rank)
  reducesTo_S8x1024x8x64x64_S8x1024x8x64_d4 : S8x1024x8x64x64.ReducesTo [4] S8x1024x8x64
  h_S_ : 0 < S_.numel
  bcast_S_S8x1024x8x64 : S_.BroadcastsInDim S8x1024x8x64 (![] : Fin 0 → Fin S8x1024x8x64.rank)
  bcast_S8x1024x8x64_S8x1024x8x64x1_0_1_2_3 : S8x1024x8x64.BroadcastsInDim S8x1024x8x64x1 (![0, 1, 2, 3] : Fin 4 → Fin S8x1024x8x64x1.rank)
  bcast_S8x1024x8x64x1_S8x1024x8x64x64_0_1_2_3_4 : S8x1024x8x64x1.BroadcastsInDim S8x1024x8x64x64 (![0, 1, 2, 3, 4] : Fin 5 → Fin S8x1024x8x64x64.rank)
  transposes_S8x1024x8x64x8_S8x1024x64x8x8_0_1_3_2_4 : S8x1024x8x64x8.Transposes [0, 1, 3, 2, 4] S8x1024x64x8x8
  shapeCasts_S8x1024x64x8x8_S8192x64x64 : S8x1024x64x8x8.ShapeCasts S8192x64x64
  dot_S8x1024x64x64_S192x64_S8x1024x64x192_3_1_012_0_n_n_wf : DotDims.WF S8x1024x64x64 S192x64 S8x1024x64x192 [3] [1] [0, 1, 2] [0] [] []
  dot_S8x1024x8x64x8_S8x1024x8x64x8_S8x1024x8x64x64_4_4_3_3_012_012_wf : DotDims.WF S8x1024x8x64x8 S8x1024x8x64x8 S8x1024x8x64x64 [4] [4] [3] [3] [0, 1, 2] [0, 1, 2]
  dot_S8x1024x8x64x64_S8x1024x8x64x8_S8x1024x8x64x8_4_3_3_4_012_012_wf : DotDims.WF S8x1024x8x64x64 S8x1024x8x64x8 S8x1024x8x64x8 [4] [3] [3] [4] [0, 1, 2] [0, 1, 2]

variable [Facts₀]

def dot_S8x1024x64x64_S192x64_S8x1024x64x192_3_1_012_0_n_n : DotDims S8x1024x64x64 S192x64 S8x1024x64x192 where
  lhsContracting := [3]
  rhsContracting := [1]
  lhsNonContracting := [0, 1, 2]
  rhsNonContracting := [0]
  lhsBatch := []
  rhsBatch := []
  wf := dot_S8x1024x64x64_S192x64_S8x1024x64x192_3_1_012_0_n_n_wf
def dot_S8x1024x8x64x8_S8x1024x8x64x8_S8x1024x8x64x64_4_4_3_3_012_012 : DotDims S8x1024x8x64x8 S8x1024x8x64x8 S8x1024x8x64x64 where
  lhsContracting := [4]
  rhsContracting := [4]
  lhsNonContracting := [3]
  rhsNonContracting := [3]
  lhsBatch := [0, 1, 2]
  rhsBatch := [0, 1, 2]
  wf := dot_S8x1024x8x64x8_S8x1024x8x64x8_S8x1024x8x64x64_4_4_3_3_012_012_wf
def dot_S8x1024x8x64x64_S8x1024x8x64x8_S8x1024x8x64x8_4_3_3_4_012_012 : DotDims S8x1024x8x64x64 S8x1024x8x64x8 S8x1024x8x64x8 where
  lhsContracting := [4]
  rhsContracting := [3]
  lhsNonContracting := [3]
  rhsNonContracting := [4]
  lhsBatch := [0, 1, 2]
  rhsBatch := [0, 1, 2]
  wf := dot_S8x1024x8x64x64_S8x1024x8x64x8_S8x1024x8x64x8_4_3_3_4_012_012_wf

class Facts : Prop extends Facts₀ where

variable [Facts]
-- ==== Proof.Spec.lean ====
/-
  Windowed multi-head self-attention with an additive positional bias, over the extended reals.

  An image of 256 x 256 positions with 64 channels is cut into 32 x 32 windows of 8 x 8 positions; window
  `n = 1024 b + 32 hh + ww` of the 8192 holds, at its position `s = 8 i + j`, the image row `8 hh + i` and
  column `8 ww + j` of batch element `b`. Each window's 64 positions are projected to queries, keys and
  values (three 64 x 64 blocks of one 192 x 64 weight, plus a bias); the 64 channels are 8 heads of 8
  channels, channel `c` belonging to head `c / 8`. Head `h` scores position `i` against `j` by the
  8-channel dot of the scaled query with the key plus the bias `pos h i j`, takes the softmax over `j`
  (maximum subtracted), and averages the values with it.

  Everything here is a statement about functions on finite index types with values in the extended reals;
  no program is mentioned.
-/
import Idealize.ShloMosaic.PureOps.Ideal
import Idealize.ShloMosaic.PureOps.Ideal.Laws
import Idealize.ShloMosaic.Lib.ValueIdx

noncomputable section

namespace Cert.WinAttn

open Idealize.ShloMosaic Idealize.ShloMosaic.ValueIdx
open scoped BigOperators

/-- The softmax scale both programs multiply the queries by: the single-precision number nearest 8^(-1/2). -/
def scale : EReal := Ideal.ofBits .f32 0x3EB504F3#32

/-- The value a row maximum starts from: minus infinity. -/
def negInf : EReal := Ideal.ofBits .f32 0xFF800000#32

theorem negInf_eq_bot : negInf = ⊥ := by simp [negInf, Ideal.ofBits, Ideal.ieee]

/-- Minus infinity is neutral for `max`. -/
theorem max_negInf (y : EReal) : max negInf y = y := by rw [negInf_eq_bot]; exact max_bot_left y

/-- A row's maximum, folded from minus infinity. -/
def rowMax (f : Fin 64 → EReal) : EReal := (Finset.univ : Finset (Fin 64)).fold max negInf f

/-- Channel `e` of head `h`. -/
def chan (h e : Fin 8) : Fin 64 := ⟨8 * h.val + e.val, by omega⟩

/-- The head a channel belongs to. -/
def headOf (c : Fin 64) : Fin 8 := ⟨c.val / 8, by omega⟩

/-- One softmax weight of a row of scores: `exp (s j - max s) / Σ_j' exp (s j' - max s)`. -/
def softmaxRow (s : Fin 64 → EReal) (j : Fin 64) : EReal :=
  Ideal.div (Ideal.exp (s j - rowMax s)) (∑ j' : Fin 64, Ideal.exp (s j' - rowMax s))

/-- A row of scores applied to one value column: the softmax-weighted sum. -/
def headOut (s : Fin 64 → EReal) (vcol : Fin 64 → EReal) : EReal := ∑ j : Fin 64, softmaxRow s j * vcol j

section Core

variable (qs k v : Fin 64 → Fin 64 → EReal) (pos : Fin 8 → Fin 64 → Fin 64 → EReal)

/-- Head `h`'s score of position `i` against `j`: the dot over the head's 8 channels, plus the bias. -/
def sim (h : Fin 8) (i j : Fin 64) : EReal := (∑ e : Fin 8, qs i (chan h e) * k j (chan h e)) + pos h i j

/-- One window's attention output at position `i`, channel `c`: the head of `c` applied to column `c` of the values. -/
def core (i c : Fin 64) : EReal := headOut (sim qs k pos (headOf c) i) (fun j => v j c)

/-- The same score computed over ALL 64 channels with the query masked to the head's channels. -/
def simM (mask : Fin 8 → Fin 64 → EReal) (h : Fin 8) (i j : Fin 64) : EReal :=
  (∑ c : Fin 64, (qs i c * mask h c) * k j c) + pos h i j

/-- Head `h`'s full-width output masked to its own channels. -/
def headM (mask : Fin 8 → Fin 64 → EReal) (h : Fin 8) (i c : Fin 64) : EReal :=
  headOut (simM qs k pos mask h i) (fun j => v j c) * mask h c

/-- The eight masked head outputs accumulated from `z`, in head order. -/
def coreM (z : EReal) (mask : Fin 8 → Fin 64 → EReal) (i c : Fin 64) : EReal :=
  (((((((z + headM qs k v pos mask 0 i c) + headM qs k v pos mask 1 i c) + headM qs k v pos mask 2 i c)
    + headM qs k v pos mask 3 i c) + headM qs k v pos mask 4 i c) + headM qs k v pos mask 5 i c)
    + headM qs k v pos mask 6 i c) + headM qs k v pos mask 7 i c

/-- A mask that is 1 on each head's own channels and 0 elsewhere. -/
def IsHeadMask (mask : Fin 8 → Fin 64 → EReal) : Prop :=
  ∀ (h : Fin 8) (c : Fin 64), mask h c = if c.val / 8 = h.val then 1 else 0

/-- A sum over the 64 channels of terms that vanish off head `h` is the sum over the head's 8 channels. -/
theorem sum_head (f : Fin 64 → EReal) (h : Fin 8) :
    (∑ c : Fin 64, if c.val / 8 = h.val then f c else 0) = ∑ e : Fin 8, f (chan h e) := by
  rw [← Finset.sum_filter]
  refine Finset.sum_bij' (fun c _ => (⟨c.val % 8, Nat.mod_lt _ (by norm_num)⟩ : Fin 8)) (fun e _ => chan h e) ?_ ?_ ?_ ?_ ?_
  · intro c _; exact Finset.mem_univ _
  · intro e _
    simp only [Finset.mem_filter, Finset.mem_univ, true_and, chan]
    have := e.isLt; omega
  · intro c hc
    simp only [Finset.mem_filter, Finset.mem_univ, true_and] at hc
    apply Fin.ext; simp only [chan]; omega
  · intro e _
    apply Fin.ext; simp only [chan]; have := e.isLt; omega
  · intro c hc
    simp only [Finset.mem_filter, Finset.mem_univ, true_and] at hc
    congr 1; apply Fin.ext; simp only [chan]; omega

/-- Masking the query to the head's channels leaves exactly the head's 8 terms of the 64-term dot. -/
theorem simM_eq {mask : Fin 8 → Fin 64 → EReal} (hm : IsHeadMask mask) (h : Fin 8) (i j : Fin 64) :
    simM qs k pos mask h i j = sim qs k pos h i j := by
  unfold simM sim
  congr 1
  rw [← sum_head (fun c => qs i c * k j c) h]
  refine Finset.sum_congr rfl fun c _ => ?_
  rw [hm h c]
  split_ifs <;> simp

/-- Of the eight masked outputs accumulated from zero only the channel's own head survives. -/
theorem coreM_eq {mask : Fin 8 → Fin 64 → EReal} (hm : IsHeadMask mask) (i c : Fin 64) :
    coreM qs k v pos 0 mask i c = core qs k v pos i c := by
  have hs : ∀ h, simM qs k pos mask h i = sim qs k pos h i := fun h => funext (simM_eq qs k pos hm h i)
  unfold coreM core headM
  simp only [hs, hm _ c]
  obtain ⟨h0, hh⟩ : ∃ h0 : Fin 8, headOf c = h0 := ⟨_, rfl⟩
  have hc : c.val / 8 = h0.val := by rw [← hh]; rfl
  rw [hh, hc]
  fin_cases h0 <;> simp

end Core

/-! ## The windows and the projections, over the whole arrays -/

abbrev XIdx := (⟨4, ![8, 256, 256, 64]⟩ : Shape).Idx
abbrev WIdx := (⟨2, ![192, 64]⟩ : Shape).Idx
abbrev BIdx := (⟨1, ![192]⟩ : Shape).Idx
abbrev PIdx := (⟨4, ![1, 8, 64, 64]⟩ : Shape).Idx
abbrev OIdx := (⟨3, ![8192, 64, 64]⟩ : Shape).Idx

/-- The batch element of window `n`. -/
def winB (n : Fin 8192) : Fin 8 := ⟨n.val / 1024, by omega⟩
/-- The image row of position `s` of window `n`. -/
def winRow (n : Fin 8192) (s : Fin 64) : Fin 256 := ⟨8 * ((n.val % 1024) / 32) + s.val / 8, by omega⟩
/-- The image column of position `s` of window `n`. -/
def winCol (n : Fin 8192) (s : Fin 64) : Fin 256 := ⟨8 * (n.val % 32) + s.val % 8, by omega⟩

/-- Window `n`'s position `s`, channel `c`. -/
def win (x : XIdx → EReal) (n : Fin 8192) (s c : Fin 64) : EReal := x (ix4 (winB n) (winRow n s) (winCol n s) c)

/-- Row `64 off + d` of the weight (`off` = 0, 1, 2 for queries, keys, values). -/
def wRow (off : Fin 3) (d : Fin 64) : Fin 192 := ⟨64 * off.val + d.val, by omega⟩

/-- The projection `off` of window `n`'s position `s`, output channel `d`. -/
def proj (x : XIdx → EReal) (W : WIdx → EReal) (b : BIdx → EReal) (off : Fin 3) (n : Fin 8192) (s d : Fin 64) : EReal :=
  (∑ c : Fin 64, win x n s c * W (ix2 (wRow off d) c)) + b (ix1 (wRow off d))

/-- THE RESULT both programs compute: window by window, the attention core of the scaled queries, the keys and the values. -/
def G (x : XIdx → EReal) (W : WIdx → EReal) (b : BIdx → EReal) (pos : PIdx → EReal) : OIdx → EReal := fun y =>
  core (fun i d => proj x W b 0 (y 0) i d * scale) (proj x W b 1 (y 0)) (proj x W b 2 (y 0))
    (fun h i j => pos (ix4 0 h i j)) (y 1) (y 2)

/-! ## The same projection read off one staged band of 16 image rows -/

abbrev XbIdx := (⟨4, ![1, 16, 256, 64]⟩ : Shape).Idx
abbrev WbIdx := (⟨2, ![64, 64]⟩ : Shape).Idx
abbrev BbIdx := (⟨1, ![64]⟩ : Shape).Idx

/-- Window `w` (of the band's 64: two rows of 32) at position `s`, channel `c`. -/
def winBand (x0 : XbIdx → EReal) (w s c : Fin 64) : EReal :=
  x0 (ix4 0 (⟨8 * (w.val / 32) + s.val / 8, by omega⟩ : Fin 16) (⟨8 * (w.val % 32) + s.val % 8, by omega⟩ : Fin 256) c)

/-- The projection of the band's window `w` by a transposed 64 x 64 weight block and its bias. -/
def projBand (x0 : XbIdx → EReal) (wT : WbIdx → EReal) (bb : BbIdx → EReal) (w s d : Fin 64) : EReal :=
  (∑ c : Fin 64, winBand x0 w s c * wT (ix2 c d)) + bb (ix1 d)

/-- Position `s` of the band's window `w` as a row of the flattened 4096 x 64 matrix of positions. -/
def flat (w s : Fin 64) : Fin 4096 := ⟨64 * w.val + s.val, by omega⟩

abbrev XhIdx := (⟨4, ![1, 8, 256, 64]⟩ : Shape).Idx

/-- The band's window `w` read off its two halves of 8 image rows each: windows 0–31 lie in the upper half, 32–63 in the lower. -/
def winHalves (v0 v2 : XhIdx → EReal) (w s c : Fin 64) : EReal :=
  if w.val < 32 then v0 (ix4 0 (⟨s.val / 8, by omega⟩ : Fin 8) (⟨8 * (w.val % 32) + s.val % 8, by omega⟩ : Fin 256) c)
  else v2 (ix4 0 (⟨s.val / 8, by omega⟩ : Fin 8) (⟨8 * (w.val % 32) + s.val % 8, by omega⟩ : Fin 256) c)

end Cert.WinAttn

end
-- ==== Proof.Heads.lean ====
/-
  The value the kernel body stores, as a function of the three projections, the positional bias and the head mask:
  eight heads, each a 64-channel masked score, a softmax over the key positions, a full-width weighted sum of the
  values masked to the head's channels, accumulated from zero. Read at one window, position and channel it is the
  attention core of the specification.
-/
import proofs.«411514_j20822001451573_3_alg».proof.Proof.Gen.KernelIdeal.Skeleton
import proofs.«411514_j20822001451573_3_alg».proof.Proof.Spec
import Idealize.ShloMosaic.Lib.Pipeline.Value
import Idealize.ShloMosaic.Lib.ValueLayout
import Idealize.ShloMosaic.PureOps.Ideal.Laws

noncomputable section

namespace Cert.KernelIdeal.Heads

open Cert.KernelIdeal Cert.KernelIdeal.Gen Cert.WinAttn Idealize.ShloMosaic Idealize.ShloMosaic.ValueIdx
open scoped BigOperators

variable {F : FTy → Type} [FloatOps F]

/-! ## One head of the body, as a term -/

/-- A 64-vector laid along the channel axis of every window and position. -/
def chanB (mrow : FVec F S64 .f32) : FVec F S64x64x64 .f32 :=
  broadcastTo S64x64x64 (shapeCast S1x1x64 mrow shapeCasts_S64_S1x1x64) broadcasts_S1x1x64_S64x64x64

/-- One 64 x 64 bias slice laid over every window. -/
def winB (posSlice : FVec F S1x64x64 .f32) : FVec F S64x64x64 .f32 :=
  broadcastTo S64x64x64 (shapeCast S1x64x64 (shapeCast S64x64 posSlice shapeCasts_S1x64x64_S64x64) shapeCasts_S64x64_S1x64x64) broadcasts_S1x64x64_S64x64x64

/-- A per-row quantity laid along the key axis. -/
def rowB (r : FVec F S64x64 .f32) : FVec F S64x64x64 .f32 :=
  broadcastTo S64x64x64 (shapeCast S64x64x1 r shapeCasts_S64x64_S64x64x1) broadcasts_S64x64x1_S64x64x64

/-- The masked queries against the keys over all 64 channels. -/
def qk (q : FVec F S64x64x64 .f32) (k : FVec F S64x64x64 .bf16) (mrow : FVec F S64 .f32) : FVec F S64x64x64 .f32 :=
  matmul dot_S64x64x64_S64x64x64_S64x64x64_2_2_1_1_0_0 none (truncf .bf16 (mulf q (chanB mrow)) bitsLt_bf16_f32) k (constant S64x64x64 .f32 0x00000000#32)

/-- The exponentials of a block of scores, each row shifted by its maximum. -/
def expT (s : FVec F S64x64x64 .f32) : FVec F S64x64x64 .f32 :=
  exp (subf s (rowB (multiReduction .maximumf [2] S64x64 s 0xFF800000#32 reduces_S64x64x64_S64x64 (.inl rfl) rfl)))

/-- The softmax of a block of scores along its last axis. -/
def softT (s : FVec F S64x64x64 .f32) : FVec F S64x64x64 .f32 :=
  divf (expT s) (rowB (multiReduction .add [2] S64x64 (expT s) 0x00000000#32 reduces_S64x64x64_S64x64 (.inl rfl) rfl))

/-- One head's contribution to the accumulator: the masked scores plus the bias slice, their softmax applied to the
    values, masked to the head's channels again. -/
def headTerm (q : FVec F S64x64x64 .f32) (k v : FVec F S64x64x64 .bf16) (posSlice : FVec F S1x64x64 .f32) (mrow : FVec F S64 .f32) :
    FVec F S64x64x64 .f32 :=
  mulf (matmul dot_S64x64x64_S64x64x64_S64x64x64_2_1_1_2_0_0 none (truncf .bf16 (softT (addf (qk q k mrow) (winB posSlice))) bitsLt_bf16_f32) v
    (constant S64x64x64 .f32 0x00000000#32)) (chanB mrow)

/-- Row `o` of the head mask as a 64-vector. -/
def maskRow (M : Vec F S8x64 .f32) (off : Fin 2 → Nat) (hs : S8x64.Slices off S1x64) : FVec F S64 .f32 :=
  shapeCast S64 (extractStridedSlice S1x64 off M hs) shapeCasts_S1x64_S64

/-- The stored vector from the projections `Q`, `K`, `V` (rows = the 4096 positions of the band's 64 windows), the scale,
    the positional bias `P` and the head mask `M`: the body's arithmetic after the projections, as one term. -/
def acc8 (Q K V : FVec F S4096x64 .f32) (S : F .f32) (P : Vec F S8x64x64 .f32) (M : Vec F S8x64 .f32) : FVec F S64x64x64 .f32 :=
  k0_pay1 (k0_pay7 K) (k0_pay8 V) (k0_pay9 P) (k0_pay21 (k0_pay6 Q S) (k0_pay7 K) (k0_pay8 V) (k0_pay9 P) M (k0_pay18 (k0_pay6 Q S) (k0_pay7 K) (k0_pay8 V) (k0_pay9 P) M (k0_pay14 (k0_pay6 Q S) (k0_pay7 K) (k0_pay8 V) (k0_pay9 P) M (k0_pay10 Q K V S P M) (k0_pay11 M) (k0_pay12 Q K S M) (k0_pay13 P)) (k0_pay15 M) (k0_pay16 (k0_pay6 Q S) (k0_pay7 K) M) (k0_pay17 (k0_pay9 P))) (k0_pay19 M) (k0_pay20 (k0_pay6 Q S) (k0_pay7 K) M)) (k0_pay22 M) (k0_pay23 (k0_pay6 Q S) M)

/-- The stored vector is the eight head terms added, in head order, onto the zero splat. -/
theorem acc8_eq (Q K V : FVec F S4096x64 .f32) (S : F .f32) (P : Vec F S8x64x64 .f32) (M : Vec F S8x64 .f32) :
    acc8 Q K V S P M =
      addf (addf (addf (addf (addf (addf (addf (addf (broadcast S64x64x64 (Scalar.ofBits .f32 0x00000000#32))
        (headTerm (k0_pay6 Q S) (k0_pay7 K) (k0_pay8 V) (extractStridedSlice S1x64x64 ![0, 0, 0] (k0_pay9 P) slices_S8x64x64_o0_0_0_S1x64x64) (maskRow M ![0, 0] slices_S8x64_o0_0_S1x64)))
        (headTerm (k0_pay6 Q S) (k0_pay7 K) (k0_pay8 V) (extractStridedSlice S1x64x64 ![1, 0, 0] (k0_pay9 P) slices_S8x64x64_o1_0_0_S1x64x64) (maskRow M ![1, 0] slices_S8x64_o1_0_S1x64)))
        (headTerm (k0_pay6 Q S) (k0_pay7 K) (k0_pay8 V) (extractStridedSlice S1x64x64 ![2, 0, 0] (k0_pay9 P) slices_S8x64x64_o2_0_0_S1x64x64) (maskRow M ![2, 0] slices_S8x64_o2_0_S1x64)))
        (headTerm (k0_pay6 Q S) (k0_pay7 K) (k0_pay8 V) (extractStridedSlice S1x64x64 ![3, 0, 0] (k0_pay9 P) slices_S8x64x64_o3_0_0_S1x64x64) (maskRow M ![3, 0] slices_S8x64_o3_0_S1x64)))
        (headTerm (k0_pay6 Q S) (k0_pay7 K) (k0_pay8 V) (extractStridedSlice S1x64x64 ![4, 0, 0] (k0_pay9 P) slices_S8x64x64_o4_0_0_S1x64x64) (maskRow M ![4, 0] slices_S8x64_o4_0_S1x64)))
        (headTerm (k0_pay6 Q S) (k0_pay7 K) (k0_pay8 V) (extractStridedSlice S1x64x64 ![5, 0, 0] (k0_pay9 P) slices_S8x64x64_o5_0_0_S1x64x64) (maskRow M ![5, 0] slices_S8x64_o5_0_S1x64)))
        (headTerm (k0_pay6 Q S) (k0_pay7 K) (k0_pay8 V) (extractStridedSlice S1x64x64 ![6, 0, 0] (k0_pay9 P) slices_S8x64x64_o6_0_0_S1x64x64) (maskRow M ![6, 0] slices_S8x64_o6_0_S1x64)))
        (headTerm (k0_pay6 Q S) (k0_pay7 K) (k0_pay8 V) (extractStridedSlice S1x64x64 ![7, 0, 0] (k0_pay9 P) slices_S8x64x64_o7_0_0_S1x64x64) (maskRow M ![7, 0] slices_S8x64_o7_0_S1x64)) := rfl

/-! ## The layout operations of one head, read at an index -/

/-- The channel broadcast reads the vector at the channel. -/
theorem chanB_apply (mrow : FVec F S64 .f32) (w i c : Fin 64) : chanB mrow (ix3 w i c) = mrow (ix1 c) := by
  unfold chanB
  refine (broadcastTo_apply _ broadcasts_S1x1x64_S64x64x64 (ix3 w i c) (ix3 (0 : Fin 1) (0 : Fin 1) c) fun a => ?_).trans ?_
  · match a with
    | ⟨0, _⟩ => rfl
    | ⟨1, _⟩ => rfl
    | ⟨2, _⟩ =>
      show c.val = if (64 : Nat) = 1 then 0 else c.val
      rw [if_neg (by decide)]
  · exact shapeCast_apply mrow shapeCasts_S64_S1x1x64 _ (ix1 c) (by
      rw [Shape.rowMajor_val_one, Shape.rowMajor_val_three]
      show c.val = (0 * 1 + 0) * 64 + c.val
      omega)

/-- The window broadcast reads the slice at the position pair, whatever the window. -/
theorem winB_apply (posSlice : FVec F S1x64x64 .f32) (w i j : Fin 64) : winB posSlice (ix3 w i j) = posSlice (ix3 (0 : Fin 1) i j) := by
  unfold winB
  rw [shapeCast_shapeCast]
  refine broadcastTo_apply _ broadcasts_S1x64x64_S64x64x64 (ix3 w i j) (ix3 (0 : Fin 1) i j) fun a => ?_
  match a with
  | ⟨0, _⟩ => rfl
  | ⟨1, _⟩ =>
    show i.val = if (64 : Nat) = 1 then 0 else i.val
    rw [if_neg (by decide)]
  | ⟨2, _⟩ =>
    show j.val = if (64 : Nat) = 1 then 0 else j.val
    rw [if_neg (by decide)]

/-- The row broadcast reads the per-row quantity at the row, whatever the key position. -/
theorem rowB_apply (r : FVec F S64x64 .f32) (w i j : Fin 64) : rowB r (ix3 w i j) = r (ix2 w i) := by
  unfold rowB
  refine (broadcastTo_apply _ broadcasts_S64x64x1_S64x64x64 (ix3 w i j) (ix3 w i (0 : Fin 1)) fun a => ?_).trans ?_
  · match a with
    | ⟨0, _⟩ =>
      show w.val = if (64 : Nat) = 1 then 0 else w.val
      rw [if_neg (by decide)]
    | ⟨1, _⟩ =>
      show i.val = if (64 : Nat) = 1 then 0 else i.val
      rw [if_neg (by decide)]
    | ⟨2, _⟩ => rfl
  · exact shapeCast_apply r shapeCasts_S64x64_S64x64x1 _ (ix2 w i) (by
      rw [Shape.rowMajor_val_two, Shape.rowMajor_val_three]
      show w.val * 64 + i.val = (w.val * 64 + i.val) * 1 + 0
      omega)

/-- Row `h` of the mask, read at a channel. -/
theorem maskRow_apply (M : Vec F S8x64 .f32) (o : Nat) (hs : S8x64.Slices ![o, 0] S1x64) (h : Fin 8) (ho : h.val = o) (c : Fin 64) :
    maskRow M ![o, 0] hs (ix1 c) = M (ix2 h c) := by
  unfold maskRow
  rw [shapeCast_1a_a_apply]
  exact slice2_axis0_apply o M hs (0 : Fin 1) c h (by rw [ho]; rfl)

/-- Slice `h` of the positional bias, read at a position pair. -/
theorem biasSlice_apply {α : Type} (P : S8x64x64.Idx → α) (o : Nat) (hs : S8x64x64.Slices ![o, 0, 0] S1x64x64) (h : Fin 8) (ho : h.val = o)
    (i j : Fin 64) : extractStridedSlice S1x64x64 ![o, 0, 0] P hs (ix3 (0 : Fin 1) i j) = P (ix3 h i j) :=
  extractStridedSlice_apply _ _ _ _ _ (fun ax => by
    match ax with
    | ⟨0, _⟩ => rw [ho]; rfl
    | ⟨1, _⟩ => exact (Nat.zero_add _).symm
    | ⟨2, _⟩ => exact (Nat.zero_add _).symm)

/-- The flattened projections re-laid by window: entry (w, i, d) is row `64 w + i`. -/
theorem winCast_apply {φ : FTy} (X : FVec F S4096x64 φ) (w i d : Fin 64) :
    shapeCast S64x64x64 X shapeCasts_S4096x64_S64x64x64 (ix3 w i d) = X (ix2 (flat w i) d) :=
  shapeCast_apply X shapeCasts_S4096x64_S64x64x64 _ _ (by
    rw [Shape.rowMajor_val_two, Shape.rowMajor_val_three]
    show (64 * w.val + i.val) * 64 + d.val = (w.val * 64 + i.val) * 64 + d.val
    omega)

/-! ## The two batched products, read at an index -/

theorem lhsQK_0 (i : S64x64x64.Idx) (q : dot_S64x64x64_S64x64x64_S64x64x64_2_2_1_1_0_0.contr.Idx) : (dot_S64x64x64_S64x64x64_S64x64x64_2_2_1_1_0_0.lhsIdx i q 0).val = (i 0).val := by
  unfold DotDims.lhsIdx
  rw [dif_pos (show (0 : Fin S64x64x64.rank) ∈ dot_S64x64x64_S64x64x64_S64x64x64_2_2_1_1_0_0.lhsBatch by decide)]
  rfl
theorem lhsQK_1 (i : S64x64x64.Idx) (q : dot_S64x64x64_S64x64x64_S64x64x64_2_2_1_1_0_0.contr.Idx) : (dot_S64x64x64_S64x64x64_S64x64x64_2_2_1_1_0_0.lhsIdx i q 1).val = (i 1).val := by
  unfold DotDims.lhsIdx
  rw [dif_neg (show ¬(1 : Fin S64x64x64.rank) ∈ dot_S64x64x64_S64x64x64_S64x64x64_2_2_1_1_0_0.lhsBatch by decide), dif_pos (show (1 : Fin S64x64x64.rank) ∈ dot_S64x64x64_S64x64x64_S64x64x64_2_2_1_1_0_0.lhsNonContracting by decide)]
  rfl
theorem lhsQK_2 (i : S64x64x64.Idx) (q : dot_S64x64x64_S64x64x64_S64x64x64_2_2_1_1_0_0.contr.Idx) : (dot_S64x64x64_S64x64x64_S64x64x64_2_2_1_1_0_0.lhsIdx i q 2).val = (q ⟨0, by decide⟩).val :=
  dot_S64x64x64_S64x64x64_S64x64x64_2_2_1_1_0_0.lhsIdx_val_of_single rfl i q
theorem rhsQK_0 (i : S64x64x64.Idx) (q : dot_S64x64x64_S64x64x64_S64x64x64_2_2_1_1_0_0.contr.Idx) : (dot_S64x64x64_S64x64x64_S64x64x64_2_2_1_1_0_0.rhsIdx i q 0).val = (i 0).val := by
  unfold DotDims.rhsIdx
  rw [dif_pos (show (0 : Fin S64x64x64.rank) ∈ dot_S64x64x64_S64x64x64_S64x64x64_2_2_1_1_0_0.rhsBatch by decide)]
  rfl
theorem rhsQK_1 (i : S64x64x64.Idx) (q : dot_S64x64x64_S64x64x64_S64x64x64_2_2_1_1_0_0.contr.Idx) : (dot_S64x64x64_S64x64x64_S64x64x64_2_2_1_1_0_0.rhsIdx i q 1).val = (i 2).val := by
  unfold DotDims.rhsIdx
  rw [dif_neg (show ¬(1 : Fin S64x64x64.rank) ∈ dot_S64x64x64_S64x64x64_S64x64x64_2_2_1_1_0_0.rhsBatch by decide), dif_pos (show (1 : Fin S64x64x64.rank) ∈ dot_S64x64x64_S64x64x64_S64x64x64_2_2_1_1_0_0.rhsNonContracting by decide)]
  rfl
theorem rhsQK_2 (i : S64x64x64.Idx) (q : dot_S64x64x64_S64x64x64_S64x64x64_2_2_1_1_0_0.contr.Idx) : (dot_S64x64x64_S64x64x64_S64x64x64_2_2_1_1_0_0.rhsIdx i q 2).val = (q ⟨0, by decide⟩).val :=
  dot_S64x64x64_S64x64x64_S64x64x64_2_2_1_1_0_0.rhsIdx_val_of_single rfl i q

/-- Queries against keys: entry (w, i, j) is the sum over the channels of query (w, i, ·) times key (w, j, ·). -/
theorem matmulQK_apply {φ₁ φ₂ : FTy} (l : FVec Ideal S64x64x64 φ₁) (r : FVec Ideal S64x64x64 φ₂) (w i j : Fin 64) :
    matmul dot_S64x64x64_S64x64x64_S64x64x64_2_2_1_1_0_0 none l r (constant S64x64x64 .f32 0x00000000#32) (ix3 w i j)
      = ∑ c : Fin 64, l (ix3 w i c) * r (ix3 w j c) := by
  simp only [matmul]
  rw [Ideal.matmul_constant_zero_apply, ← Equiv.sum_comp (contrEquiv1 dot_S64x64x64_S64x64x64_S64x64x64_2_2_1_1_0_0 64 rfl rfl).symm]
  refine Finset.sum_congr rfl fun k _ => ?_
  have hk := contrEquiv1_symm_val dot_S64x64x64_S64x64x64_S64x64x64_2_2_1_1_0_0 64 rfl rfl k
  have el : dot_S64x64x64_S64x64x64_S64x64x64_2_2_1_1_0_0.lhsIdx (ix3 w i j) ((contrEquiv1 dot_S64x64x64_S64x64x64_S64x64x64_2_2_1_1_0_0 64 rfl rfl).symm k) = ix3 w i k := funext fun a => Fin.ext (by
    match a with
    | ⟨0, _⟩ => exact lhsQK_0 _ _
    | ⟨1, _⟩ => exact lhsQK_1 _ _
    | ⟨2, _⟩ => exact (lhsQK_2 _ _).trans hk)
  have er : dot_S64x64x64_S64x64x64_S64x64x64_2_2_1_1_0_0.rhsIdx (ix3 w i j) ((contrEquiv1 dot_S64x64x64_S64x64x64_S64x64x64_2_2_1_1_0_0 64 rfl rfl).symm k) = ix3 w j k := funext fun a => Fin.ext (by
    match a with
    | ⟨0, _⟩ => exact rhsQK_0 _ _
    | ⟨1, _⟩ => exact rhsQK_1 _ _
    | ⟨2, _⟩ => exact (rhsQK_2 _ _).trans hk)
  rw [el, er]

theorem lhsPV_0 (i : S64x64x64.Idx) (q : dot_S64x64x64_S64x64x64_S64x64x64_2_1_1_2_0_0.contr.Idx) : (dot_S64x64x64_S64x64x64_S64x64x64_2_1_1_2_0_0.lhsIdx i q 0).val = (i 0).val := by
  unfold DotDims.lhsIdx
  rw [dif_pos (show (0 : Fin S64x64x64.rank) ∈ dot_S64x64x64_S64x64x64_S64x64x64_2_1_1_2_0_0.lhsBatch by decide)]
  rfl
theorem lhsPV_1 (i : S64x64x64.Idx) (q : dot_S64x64x64_S64x64x64_S64x64x64_2_1_1_2_0_0.contr.Idx) : (dot_S64x64x64_S64x64x64_S64x64x64_2_1_1_2_0_0.lhsIdx i q 1).val = (i 1).val := by
  unfold DotDims.lhsIdx
  rw [dif_neg (show ¬(1 : Fin S64x64x64.rank) ∈ dot_S64x64x64_S64x64x64_S64x64x64_2_1_1_2_0_0.lhsBatch by decide), dif_pos (show (1 : Fin S64x64x64.rank) ∈ dot_S64x64x64_S64x64x64_S64x64x64_2_1_1_2_0_0.lhsNonContracting by decide)]
  rfl
theorem lhsPV_2 (i : S64x64x64.Idx) (q : dot_S64x64x64_S64x64x64_S64x64x64_2_1_1_2_0_0.contr.Idx) : (dot_S64x64x64_S64x64x64_S64x64x64_2_1_1_2_0_0.lhsIdx i q 2).val = (q ⟨0, by decide⟩).val :=
  dot_S64x64x64_S64x64x64_S64x64x64_2_1_1_2_0_0.lhsIdx_val_of_single rfl i q
theorem rhsPV_0 (i : S64x64x64.Idx) (q : dot_S64x64x64_S64x64x64_S64x64x64_2_1_1_2_0_0.contr.Idx) : (dot_S64x64x64_S64x64x64_S64x64x64_2_1_1_2_0_0.rhsIdx i q 0).val = (i 0).val := by
  unfold DotDims.rhsIdx
  rw [dif_pos (show (0 : Fin S64x64x64.rank) ∈ dot_S64x64x64_S64x64x64_S64x64x64_2_1_1_2_0_0.rhsBatch by decide)]
  rfl
theorem rhsPV_1 (i : S64x64x64.Idx) (q : dot_S64x64x64_S64x64x64_S64x64x64_2_1_1_2_0_0.contr.Idx) : (dot_S64x64x64_S64x64x64_S64x64x64_2_1_1_2_0_0.rhsIdx i q 1).val = (q ⟨0, by decide⟩).val :=
  dot_S64x64x64_S64x64x64_S64x64x64_2_1_1_2_0_0.rhsIdx_val_of_single rfl i q
theorem rhsPV_2 (i : S64x64x64.Idx) (q : dot_S64x64x64_S64x64x64_S64x64x64_2_1_1_2_0_0.contr.Idx) : (dot_S64x64x64_S64x64x64_S64x64x64_2_1_1_2_0_0.rhsIdx i q 2).val = (i 2).val := by
  unfold DotDims.rhsIdx
  rw [dif_neg (show ¬(2 : Fin S64x64x64.rank) ∈ dot_S64x64x64_S64x64x64_S64x64x64_2_1_1_2_0_0.rhsBatch by decide), dif_pos (show (2 : Fin S64x64x64.rank) ∈ dot_S64x64x64_S64x64x64_S64x64x64_2_1_1_2_0_0.rhsNonContracting by decide)]
  rfl

/-- Weights against values: entry (w, i, c) is the sum over the key positions of weight (w, i, ·) times value (w, ·, c). -/
theorem matmulPV_apply {φ₁ φ₂ : FTy} (l : FVec Ideal S64x64x64 φ₁) (r : FVec Ideal S64x64x64 φ₂) (w i c : Fin 64) :
    matmul dot_S64x64x64_S64x64x64_S64x64x64_2_1_1_2_0_0 none l r (constant S64x64x64 .f32 0x00000000#32) (ix3 w i c)
      = ∑ j : Fin 64, l (ix3 w i j) * r (ix3 w j c) := by
  simp only [matmul]
  rw [Ideal.matmul_constant_zero_apply, ← Equiv.sum_comp (contrEquiv1 dot_S64x64x64_S64x64x64_S64x64x64_2_1_1_2_0_0 64 rfl rfl).symm]
  refine Finset.sum_congr rfl fun k _ => ?_
  have hk := contrEquiv1_symm_val dot_S64x64x64_S64x64x64_S64x64x64_2_1_1_2_0_0 64 rfl rfl k
  have el : dot_S64x64x64_S64x64x64_S64x64x64_2_1_1_2_0_0.lhsIdx (ix3 w i c) ((contrEquiv1 dot_S64x64x64_S64x64x64_S64x64x64_2_1_1_2_0_0 64 rfl rfl).symm k) = ix3 w i k := funext fun a => Fin.ext (by
    match a with
    | ⟨0, _⟩ => exact lhsPV_0 _ _
    | ⟨1, _⟩ => exact lhsPV_1 _ _
    | ⟨2, _⟩ => exact (lhsPV_2 _ _).trans hk)
  have er : dot_S64x64x64_S64x64x64_S64x64x64_2_1_1_2_0_0.rhsIdx (ix3 w i c) ((contrEquiv1 dot_S64x64x64_S64x64x64_S64x64x64_2_1_1_2_0_0 64 rfl rfl).symm k) = ix3 w k c := funext fun a => Fin.ext (by
    match a with
    | ⟨0, _⟩ => exact rhsPV_0 _ _
    | ⟨1, _⟩ => exact (rhsPV_1 _ _).trans hk
    | ⟨2, _⟩ => exact rhsPV_2 _ _)
  rw [el, er]

/-! ## The two row reductions and the softmax, read at an index -/

/-- The index over row (w, i) with key position `k` inserted is (w, i, k). -/
theorem lift_last (w i k : Fin 64) :
    Shape.Reduces.lift (a := (2 : Fin S64x64x64.rank)) reduces_S64x64x64_S64x64 (ix2 w i) k = ix3 w i k :=
  funext fun a => Fin.ext (by
    match a with
    | ⟨0, _⟩ => rfl
    | ⟨1, _⟩ => rfl
    | ⟨2, _⟩ => rfl)

/-- The maximum over the key axis is the row maximum of the specification. -/
theorem rowMax_read (s : FVec Ideal S64x64x64 .f32) (hφ : FKind.Formats .f32) (hacc : (0xFF800000#32 : BitVec 32) = FKind.maximumf.neutral .f32 hφ)
    (w i : Fin 64) :
    multiReduction .maximumf [2] S64x64 s 0xFF800000#32 reduces_S64x64x64_S64x64 hφ hacc (ix2 w i) = rowMax (fun j => s (ix3 w i j)) := by
  rw [Ideal.multiReduction_maximumf_single]
  have e : (s ∘ Shape.Reduces.lift (a := (2 : Fin S64x64x64.rank)) reduces_S64x64x64_S64x64 (ix2 w i)) = fun j : Fin 64 => s (ix3 w i j) :=
    funext fun k => congrArg s (lift_last w i k)
  rw [e]
  rfl

/-- The sum over the key axis. -/
theorem rowSum_read (e : FVec Ideal S64x64x64 .f32) (hφ : FKind.Formats .f32) (hacc : (0x00000000#32 : BitVec 32) = FKind.add.neutral .f32 hφ)
    (w i : Fin 64) :
    multiReduction .add [2] S64x64 e 0x00000000#32 reduces_S64x64x64_S64x64 hφ hacc (ix2 w i) = ∑ j : Fin 64, e (ix3 w i j) := by
  rw [Ideal.multiReduction_add_single]
  exact Finset.sum_congr rfl fun k _ => congrArg e (lift_last w i k)

/-- The shifted exponential at (w, i, j). -/
theorem expT_apply (s : FVec Ideal S64x64x64 .f32) (w i j : Fin 64) :
    expT s (ix3 w i j) = Ideal.exp (s (ix3 w i j) - rowMax (fun j' => s (ix3 w i j'))) := by
  unfold expT
  show Ideal.exp (s (ix3 w i j) - rowB (F := Ideal) _ (ix3 w i j)) = _
  rw [rowB_apply]
  exact congrArg (fun m => Ideal.exp (s (ix3 w i j) - m)) (rowMax_read s _ _ w i)

/-- The block softmax at (w, i, j) is the specification's softmax of row (w, i). -/
theorem softT_apply (s : FVec Ideal S64x64x64 .f32) (w i j : Fin 64) :
    softT s (ix3 w i j) = softmaxRow (fun j' => s (ix3 w i j')) j := by
  unfold softT softmaxRow
  show Ideal.div (expT s (ix3 w i j)) (rowB (F := Ideal) _ (ix3 w i j)) = _
  rw [rowB_apply]
  refine (congrArg (fun m => Ideal.div (expT s (ix3 w i j)) m) (rowSum_read (expT s) _ _ w i)).trans ?_
  simp only [expT_apply]

/-- ONE HEAD at (w, i, c): the softmax of the masked 64-channel scores plus the bias, applied to column `c` of the
    window's values, times the mask at `c`. -/
theorem headTerm_apply (q : FVec Ideal S64x64x64 .f32) (k v : FVec Ideal S64x64x64 .bf16) (posSlice : FVec Ideal S1x64x64 .f32)
    (mrow : FVec Ideal S64 .f32) (w i c : Fin 64) :
    headTerm q k v posSlice mrow (ix3 w i c)
      = headOut (fun j => (∑ c' : Fin 64, (q (ix3 w i c') * mrow (ix1 c')) * k (ix3 w j c')) + posSlice (ix3 (0 : Fin 1) i j))
          (fun j => v (ix3 w j c)) * mrow (ix1 c) := by
  unfold headTerm headOut
  show matmul (F := Ideal) _ none _ v _ (ix3 w i c) * chanB mrow (ix3 w i c) = _
  rw [matmulPV_apply, chanB_apply]
  refine congrArg (· * mrow (ix1 c)) (Finset.sum_congr rfl fun j _ => ?_)
  show (softT (F := Ideal) _ (ix3 w i j) : EReal) * v (ix3 w j c) = _
  rw [softT_apply]
  refine congrArg (fun f => softmaxRow f j * v (ix3 w j c)) (funext fun j' => ?_)
  show qk q k mrow (ix3 w i j') + winB posSlice (ix3 w i j') = _
  rw [winB_apply]
  unfold qk
  rw [matmulQK_apply]
  refine congrArg (· + posSlice (ix3 (0 : Fin 1) i j')) (Finset.sum_congr rfl fun c' _ => ?_)
  show (q (ix3 w i c') * chanB mrow (ix3 w i c')) * k (ix3 w j' c') = _
  rw [chanB_apply]

/-! ## The projections by window, and the assembly -/

/-- The scaled queries at window `w`, position `i`, channel `d`. -/
theorem pay6_apply (Q : FVec Ideal S4096x64 .f32) (S : Ideal .f32) (w i d : Fin 64) :
    k0_pay6 Q S (ix3 w i d) = Q (ix2 (flat w i) d) * S :=
  winCast_apply (mulf Q (broadcast S4096x64 S)) w i d

/-- The keys at window `w`, position `j`, channel `d`. -/
theorem pay7_apply (K : FVec Ideal S4096x64 .f32) (w j d : Fin 64) : k0_pay7 K (ix3 w j d) = K (ix2 (flat w j) d) :=
  winCast_apply K w j d

/-- The values at window `w`, position `j`, channel `d`. -/
theorem pay8_apply (V : FVec Ideal S4096x64 .f32) (w j d : Fin 64) : k0_pay8 V (ix3 w j d) = V (ix2 (flat w j) d) :=
  winCast_apply V w j d

/-- The positional bias enters unchanged. -/
theorem pay9_eq (P : Vec F S8x64x64 .f32) : k0_pay9 P = P := shapeCast_self P _

/-- At window `w`, position `i`, channel `c` the stored vector is the attention core of the window's rows of the
    projections (the queries scaled), under a mask that is 1 exactly on each head's own channels. -/
theorem acc8_apply (Q K V : FVec Ideal S4096x64 .f32) (P : Vec Ideal S8x64x64 .f32) (M : Vec Ideal S8x64 .f32)
    (hM : IsHeadMask (fun h c => M (ix2 h c))) (w i c : Fin 64) :
    acc8 Q K V (Scalar.ofBits .f32 0x3EB504F3#32) P M (ix3 w i c)
      = core (fun i d => Q (ix2 (flat w i) d) * scale) (fun j d => K (ix2 (flat w j) d)) (fun j d => V (ix2 (flat w j) d))
          (fun h i j => P (ix3 h i j)) i c := by
  rw [acc8_eq, ← coreM_eq _ _ _ _ hM i c]
  simp only [addf_apply, broadcast_apply, headTerm_apply, pay6_apply, pay7_apply, pay8_apply, pay9_eq,
    maskRow_apply M 0 slices_S8x64_o0_0_S1x64 0 rfl, maskRow_apply M 1 slices_S8x64_o1_0_S1x64 1 rfl,
    maskRow_apply M 2 slices_S8x64_o2_0_S1x64 2 rfl, maskRow_apply M 3 slices_S8x64_o3_0_S1x64 3 rfl,
    maskRow_apply M 4 slices_S8x64_o4_0_S1x64 4 rfl, maskRow_apply M 5 slices_S8x64_o5_0_S1x64 5 rfl,
    maskRow_apply M 6 slices_S8x64_o6_0_S1x64 6 rfl, maskRow_apply M 7 slices_S8x64_o7_0_S1x64 7 rfl,
    biasSlice_apply P 0 slices_S8x64x64_o0_0_0_S1x64x64 0 rfl, biasSlice_apply P 1 slices_S8x64x64_o1_0_0_S1x64x64 1 rfl,
    biasSlice_apply P 2 slices_S8x64x64_o2_0_0_S1x64x64 2 rfl, biasSlice_apply P 3 slices_S8x64x64_o3_0_0_S1x64x64 3 rfl,
    biasSlice_apply P 4 slices_S8x64x64_o4_0_0_S1x64x64 4 rfl, biasSlice_apply P 5 slices_S8x64x64_o5_0_0_S1x64x64 5 rfl,
    biasSlice_apply P 6 slices_S8x64x64_o6_0_0_S1x64x64 6 rfl, biasSlice_apply P 7 slices_S8x64x64_o7_0_0_S1x64x64 7 rfl]
  have h0 : (Scalar.ofBits .f32 0x00000000#32 : Ideal .f32) = (0 : EReal) := Ideal.ofBits_zero_f32
  rw [h0]
  rfl

end Cert.KernelIdeal.Heads

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Proj.lean ====
/-
  The three projections of the kernel body: the band's two halves re-laid as 64 windows of 64 positions, flattened
  to 4096 rows, multiplied by a 64 x 64 weight block and shifted by a bias.
-/
import proofs.«411514_j20822001451573_3_alg».proof.Proof.Gen.KernelIdeal.Skeleton
import proofs.«411514_j20822001451573_3_alg».proof.Proof.Spec
import proofs.«411514_j20822001451573_3_alg».proof.Proof.LibMatmulAt
import Idealize.ShloMosaic.Lib.Pipeline.Value
import Idealize.ShloMosaic.Lib.ValueLayout
import Idealize.ShloMosaic.PureOps.Ideal.Laws

noncomputable section

namespace Cert.KernelIdeal.Proj

open Cert.KernelIdeal Cert.KernelIdeal.Gen Cert.WinAttn Idealize.ShloMosaic Idealize.ShloMosaic.ValueIdx
open scoped BigOperators

/-- One half of the band (8 image rows, 256 columns) re-laid as 32 windows of 64 positions: window `ww`, position
    `s = 8 i + j` is image row `i`, column `8 ww + j` of the half. -/
private theorem half_apply {α : Type} (v : S1x8x256x64.Idx → α) (ww : Fin 32) (s c : Fin 64) (row : Fin 8) (col : Fin 256)
    (hrow : row.val = s.val / 8) (hcol : col.val = 8 * ww.val + s.val % 8) :
    shapeCast S32x64x64
      (transpose S32x8x8x64 [1, 0, 2, 3]
        (shapeCast S8x32x8x64 (shapeCast S8x256x64 v shapeCasts_S1x8x256x64_S8x256x64) shapeCasts_S8x256x64_S8x32x8x64)
        transposes_S8x32x8x64_p1_0_2_3_S32x8x8x64)
      shapeCasts_S32x8x8x64_S32x64x64 (ix3 ww s c) = v (ix4 0 row col c) := by
  have hs : s.val < 64 := s.isLt
  have hw : ww.val < 32 := ww.isLt
  have hc : c.val < 64 := c.isLt
  have hj : s.val % 8 < 8 := Nat.mod_lt _ (by omega)
  have hds := Nat.div_add_mod s.val 8
  -- [32,64,64] at (ww, s, c) reads [32,8,8,64] at (ww, s / 8, s % 8, c)
  refine (shapeCast_apply _ _ (ix3 ww s c) (ix4 ww row (⟨s.val % 8, hj⟩ : Fin 8) c)
    (by rw [Shape.rowMajor_val_four, Shape.rowMajor_val_three]
        show ((ww.val * 8 + row.val) * 8 + s.val % 8) * 64 + c.val = (ww.val * 64 + s.val) * 64 + c.val
        omega)).trans ?_
  -- the transpose [1,0,2,3]: [32,8,8,64] at (ww, i, j, c) reads [8,32,8,64] at (i, ww, j, c)
  refine (transpose_apply _ _ _ _ (ix4 row ww (⟨s.val % 8, hj⟩ : Fin 8) c)
    (fun b => match b with | ⟨0, _⟩ => rfl | ⟨1, _⟩ => rfl | ⟨2, _⟩ => rfl | ⟨3, _⟩ => rfl)).trans ?_
  -- [8,32,8,64] at (i, ww, j, c) reads [8,256,64] at (i, 8 ww + j, c)
  refine (shapeCast_apply _ _ _ (ix3 row col c)
    (by rw [Shape.rowMajor_val_three, Shape.rowMajor_val_four]
        show (row.val * 256 + col.val) * 64 + c.val = ((row.val * 32 + ww.val) * 8 + s.val % 8) * 64 + c.val
        omega)).trans ?_
  -- dropping the unit axis
  exact shapeCast_apply _ _ _ (ix4 0 row col c)
    (by rw [Shape.rowMajor_val_four, Shape.rowMajor_val_three]
        show (((0 : Fin 1).val * 8 + row.val) * 256 + col.val) * 64 + c.val = (row.val * 256 + col.val) * 64 + c.val
        simp)

/-- Row `64 w + s` of the flattened window matrix is position `s` of window `w`, read off the half it lies in. -/
theorem windows_apply (v0 v2 : Vec Ideal S1x8x256x64 .f32) (w s c : Fin 64) :
    k0_pay2 v0 v2 (ix2 (flat w s) c) = winHalves v0 v2 w s c := by
  have hs : s.val < 64 := s.isLt
  have hw : w.val < 64 := w.isLt
  unfold k0_pay2
  -- [4096,64] at (64 w + s, c) reads [64,64,64] at (w, s, c)
  refine (shapeCast_apply _ _ (ix2 (flat w s) c) (ix3 w s c)
    (by rw [Shape.rowMajor_val_three, Shape.rowMajor_val_two]
        show (w.val * 64 + s.val) * 64 + c.val = (64 * w.val + s.val) * 64 + c.val
        omega)).trans ?_
  rw [truncf_apply]
  unfold winHalves
  by_cases h32 : w.val < 32
  · rw [if_pos h32]
    refine (concatenate_pair_apply_left 0 _ _ concatenates_S32x64x64_S32x64x64_S64x64x64_d0 (ix3 w s c) rfl
      (ix3 (⟨w.val, h32⟩ : Fin 32) s c)
      (fun b => match b with | ⟨0, _⟩ => rfl | ⟨1, _⟩ => rfl | ⟨2, _⟩ => rfl)).trans ?_
    exact half_apply v0 ⟨w.val, h32⟩ s c _ _ rfl (by show 8 * (w.val % 32) + s.val % 8 = 8 * w.val + s.val % 8; omega)
  · rw [if_neg h32]
    refine (concatenate_pair_apply_right 0 _ _ concatenates_S32x64x64_S32x64x64_S64x64x64_d0 (ix3 w s c) rfl rfl
      (ix3 (⟨w.val - 32, by omega⟩ : Fin 32) s c)
      (fun b hb => match b with | ⟨0, _⟩ => absurd rfl hb | ⟨1, _⟩ => rfl | ⟨2, _⟩ => rfl)
      (by show w.val - 32 + 32 = w.val; omega)).trans ?_
    exact half_apply v2 ⟨w.val - 32, by omega⟩ s c _ _ rfl (by show 8 * (w.val % 32) + s.val % 8 = 8 * (w.val - 32) + s.val % 8; omega)

/-- The projection's matrix product reads its left operand's row at the result's row, -/
private theorem lhs_proj_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
/-- its left operand's column at the summation position, -/
private theorem lhs_proj_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
/-- its right operand's row at the summation position, -/
private theorem rhs_proj_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
/-- and its right operand's column at the result's column. -/
private theorem rhs_proj_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The bias laid along every row: entry (r, d) of the broadcast is the bias at `d`. -/
private theorem bias_apply {α : Type} (bb : S64.Idx → α) (r : Fin 4096) (d : Fin 64) :
    broadcastTo S4096x64 (shapeCast S1x64 (shapeCast S64 bb shapeCasts_S64_S64) shapeCasts_S64_S1x64) broadcasts_S1x64_S4096x64 (ix2 r d)
      = bb (ix1 d) := by
  rw [shapeCast_self]
  exact (broadcastTo_1b_ab_apply _ broadcasts_S1x64_S4096x64 r d).trans (shapeCast_a_1a_apply bb shapeCasts_S64_S1x64 0 d)

/-- The query projection at row `64 w + s`, channel `d`: the window position's 64 channels against column `d` of the
    weight block, plus the bias. -/
theorem proj_apply (v0 v2 : Vec Ideal S1x8x256x64 .f32) (wT : Vec Ideal S64x64 .bf16) (bb : Vec Ideal S64 .f32) (w s d : Fin 64) :
    k0_pay3 v0 v2 wT bb (ix2 (flat w s) d) = (∑ c : Fin 64, winHalves v0 v2 w s c * wT (ix2 c d)) + bb (ix1 d) := by
  unfold k0_pay3
  rw [addf_apply, bias_apply, shapeCast_self]
  congr 1
  refine (Idealize.ShloMosaic.MatmulAt.matmul_zero_at dot_S4096x64_S64x64_S4096x64_1_0_0_1_n_n rfl rfl
    lhs_proj_0 lhs_proj_1 rhs_proj_0 rhs_proj_1 none (k0_pay2 v0 v2) wT (flat w s) d).trans ?_
  exact Finset.sum_congr rfl fun c _ => by rw [windows_apply]

/-- The key and value projections are the same function of their own weight block and bias. -/
theorem pay4_eq : k0_pay4 (F := Ideal) = k0_pay3 := rfl
theorem pay5_eq : k0_pay5 (F := Ideal) = k0_pay3 := rfl

end Cert.KernelIdeal.Proj

end
-- ==== Proof.Body.lean ====
/-
  The body's result for the output window, read at one window, position and channel of the staged band: the
  attention core of the band's three projections.

  The body loads the band as two halves of 8 image rows, the three weight blocks, the three biases, the positional
  bias and the mask whole, and stores once, whole; so the window's buffer after the body is the stored vector, a
  function of those loads.
-/
import proofs.«411514_j20822001451573_3_alg».proof.Proof.Gen.KernelIdeal.Frame
import proofs.«411514_j20822001451573_3_alg».proof.Proof.Heads
import proofs.«411514_j20822001451573_3_alg».proof.Proof.Proj

noncomputable section

namespace Cert.KernelIdeal.Body

open Cert.KernelIdeal Cert.KernelIdeal.Gen Cert.KernelIdeal.Heads Cert.KernelIdeal.Proj Cert.WinAttn Idealize.ShloMosaic Idealize.ShloMosaic.ValueIdx
open scoped BigOperators

theorem zero4 : (![0, 0, 0, 0] : Fin 4 → Nat) = fun _ => 0 := by funext a; fin_cases a <;> rfl
theorem zero3 : (![0, 0, 0] : Fin 3 → Nat) = fun _ => 0 := by funext a; fin_cases a <;> rfl
theorem zero2 : (![0, 0] : Fin 2 → Nat) = fun _ => 0 := by funext a; fin_cases a <;> rfl
theorem zero1 : (![0] : Fin 1 → Nat) = fun _ => 0 := by funext a; fin_cases a; rfl

/-- The upper half of the band: its rows 0–7. -/
theorem ld_upper (x0 : Vec Ideal S1x16x256x64 .f32) (r : Fin 8) (col : Fin 256) (ch : Fin 64) :
    View.ld x0 r0_0 (ix4 0 r col ch) = x0 (ix4 0 (⟨r.val, by omega⟩ : Fin 16) col ch) := by
  show x0 _ = x0 _
  congr 1; funext a; apply Fin.ext
  match a with
  | ⟨0, _⟩ => rfl
  | ⟨1, _⟩ => first | rfl | (show _ + 1 * _ = _; simp) | simp
  | ⟨2, _⟩ => first | rfl | (show _ + 1 * _ = _; simp) | simp
  | ⟨3, _⟩ => first | rfl | (show _ + 1 * _ = _; simp) | simp

/-- The lower half of the band: its rows 8–15. -/
theorem ld_lower (x0 : Vec Ideal S1x16x256x64 .f32) (r : Fin 8) (col : Fin 256) (ch : Fin 64) :
    View.ld x0 r0_1 (ix4 0 r col ch) = x0 (ix4 0 (⟨8 + r.val, by omega⟩ : Fin 16) col ch) := by
  show x0 _ = x0 _
  congr 1; funext a; apply Fin.ext
  match a with
  | ⟨0, _⟩ => rfl
  | ⟨1, _⟩ => first | rfl | (show _ + 1 * _ = _; simp) | simp
  | ⟨2, _⟩ => first | rfl | (show _ + 1 * _ = _; simp) | simp
  | ⟨3, _⟩ => first | rfl | (show _ + 1 * _ = _; simp) | simp

/-- The two halves read window by window are the band read window by window: window `w` lies in half `w / 32`. -/
theorem halves_eq (x0 : Vec Ideal S1x16x256x64 .f32) (w s c : Fin 64) :
    winHalves (View.ld x0 r0_0) (View.ld x0 r0_1) w s c = winBand x0 w s c := by
  unfold winHalves winBand
  split_ifs with h
  · rw [ld_upper]; congr 2; apply Fin.ext; simp only; omega
  · rw [ld_lower]; congr 2; apply Fin.ext; simp only; omega

/-- The window's buffer after the body is the stored vector of the loads. -/
theorem out_eq (x0 : Vec Ideal S1x16x256x64 .f32) (x1 x2 x3 : Vec Ideal S64x64 .bf16) (x4 x5 x6 : Vec Ideal S64 .f32)
    (x7 : Vec Ideal S8x64x64 .f32) (x8 : Vec Ideal S8x64 .f32) :
    out0_9 x0 x1 x2 x3 x4 x5 x6 x7 x8
      = acc8 (k0_pay3 (View.ld x0 r0_0) (View.ld x0 r0_1) x1 x4) (k0_pay3 (View.ld x0 r0_0) (View.ld x0 r0_1) x2 x5)
          (k0_pay3 (View.ld x0 r0_0) (View.ld x0 r0_1) x3 x6) (Scalar.ofBits .f32 0x3EB504F3#32) x7 x8 := by
  unfold out0_9
  rw [View.canon_unit_zero zero3]
  rw [View.ld_unit_zero (S := S64x64) zero2, View.ld_unit_zero (S := S64x64) zero2, View.ld_unit_zero (S := S64x64) zero2,
    View.ld_unit_zero (S := S64) zero1, View.ld_unit_zero (S := S64) zero1, View.ld_unit_zero (S := S64) zero1,
    View.ld_unit_zero (S := S8x64x64) zero3, View.ld_unit_zero (S := S8x64) zero2]
  rfl

/-- What the body leaves in the output window's buffer, at window `w`, position `i`, channel `c`, from the staged blocks:
    the band `x0`, the three transposed weight blocks and biases, the positional bias and a head mask. -/
theorem out_apply (x0 : Vec Ideal S1x16x256x64 .f32) (x1 x2 x3 : Vec Ideal S64x64 .bf16) (x4 x5 x6 : Vec Ideal S64 .f32)
    (x7 : Vec Ideal S8x64x64 .f32) (x8 : Vec Ideal S8x64 .f32) (hM : IsHeadMask (fun h c => x8 (ix2 h c))) (w i c : Fin 64) :
    out0_9 x0 x1 x2 x3 x4 x5 x6 x7 x8 (ix3 w i c)
      = core (fun i d => projBand x0 x1 x4 w i d * scale) (projBand x0 x2 x5 w) (projBand x0 x3 x6 w)
          (fun h i j => x7 (ix3 h i j)) i c := by
  rw [out_eq, acc8_apply _ _ _ _ _ hM]
  simp only [proj_apply, halves_eq]
  rfl

end Cert.KernelIdeal.Body

end
-- ==== Proof.Entry.lean ====
/-
  What the region finds in its windows: the image band of a grid point, the three weight blocks transposed, the
  three bias blocks, the positional bias with its leading unit axis dropped, and the constant head mask.
-/
import proofs.«411514_j20822001451573_3_alg».proof.Proof.Gen.KernelIdeal.Value
import proofs.«411514_j20822001451573_3_alg».proof.Proof.Spec
import Idealize.ShloMosaic.Lib.StableHlo.Run
import Idealize.ShloMosaic.Lib.IdealHost

noncomputable section

namespace Cert.KernelIdeal.Entry

open Cert.KernelIdeal Cert.KernelIdeal.Gen Cert.WinAttn Idealize.ShloMosaic Idealize.ShloMosaic.TcCoe Idealize.SL.Sem Idealize.ShloMosaic.ValueIdx
open scoped BigOperators

variable (m : (ℓ : Loc nD τ sig) → Buf (Elt Ideal) ℓ)

/-- The argument arrays as launched. -/
abbrev argX (c : Dev nD) : Vec Ideal S8x256x256x64 .f32 := m ((c : Thread nD τ).loc main_arg0)
abbrev argW (c : Dev nD) : Vec Ideal S192x64 .f32 := m ((c : Thread nD τ).loc main_arg1)
abbrev argB (c : Dev nD) : Vec Ideal S192 .f32 := m ((c : Thread nD τ).loc main_arg2)
abbrev argP (c : Dev nD) : Vec Ideal S1x8x64x64 .f32 := m ((c : Thread nD τ).loc main_arg3)

/-- The input windows' blocks at grid point `t`, at their literal types. -/
abbrev blkX (c : Dev nD) (t : Fin cfg0.N) : Vec Ideal S1x16x256x64 .f32 := iblk m c 0 t
abbrev blkWq (c : Dev nD) (t : Fin cfg0.N) : Vec Ideal S64x64 .bf16 := iblk m c 1 t
abbrev blkWk (c : Dev nD) (t : Fin cfg0.N) : Vec Ideal S64x64 .bf16 := iblk m c 2 t
abbrev blkWv (c : Dev nD) (t : Fin cfg0.N) : Vec Ideal S64x64 .bf16 := iblk m c 3 t
abbrev blkBq (c : Dev nD) (t : Fin cfg0.N) : Vec Ideal S64 .f32 := iblk m c 4 t
abbrev blkBk (c : Dev nD) (t : Fin cfg0.N) : Vec Ideal S64 .f32 := iblk m c 5 t
abbrev blkBv (c : Dev nD) (t : Fin cfg0.N) : Vec Ideal S64 .f32 := iblk m c 6 t
abbrev blkP (c : Dev nD) (t : Fin cfg0.N) : Vec Ideal S8x64x64 .f32 := iblk m c 7 t
abbrev blkM (c : Dev nD) (t : Fin cfg0.N) : Vec Ideal S8x64 .f32 := iblk m c 8 t

/-! ## Where each window's block sits

A block's coordinate on an axis is the window's block index there times the block's extent plus the coordinate inside
the block. The image window moves with the grid point: its block index is the batch element `t / 16` on the batch axis
and the band `t % 16` on the row axis. Every other window holds its whole array: block index zero on every axis. -/

private theorem index_x : ∀ t : Fin cfg0.N, win0_0.index t (0 : Fin 4) = t.val / 16 ∧ win0_0.index t (1 : Fin 4) = t.val % 16
    ∧ win0_0.index t (2 : Fin 4) = 0 ∧ win0_0.index t (3 : Fin 4) = 0 :=
  (by decide +kernel : ∀ t : Fin grid0.N, _)
private theorem index_wq : ∀ t : Fin cfg0.N, win0_1.index t (0 : Fin 2) = 0 ∧ win0_1.index t (1 : Fin 2) = 0 :=
  (by decide +kernel : ∀ t : Fin grid0.N, _)
private theorem index_wk : ∀ t : Fin cfg0.N, win0_2.index t (0 : Fin 2) = 0 ∧ win0_2.index t (1 : Fin 2) = 0 :=
  (by decide +kernel : ∀ t : Fin grid0.N, _)
private theorem index_wv : ∀ t : Fin cfg0.N, win0_3.index t (0 : Fin 2) = 0 ∧ win0_3.index t (1 : Fin 2) = 0 :=
  (by decide +kernel : ∀ t : Fin grid0.N, _)
private theorem index_bq : ∀ t : Fin cfg0.N, win0_4.index t (0 : Fin 1) = 0 := (by decide +kernel : ∀ t : Fin grid0.N, _)
private theorem index_bk : ∀ t : Fin cfg0.N, win0_5.index t (0 : Fin 1) = 0 := (by decide +kernel : ∀ t : Fin grid0.N, _)
private theorem index_bv : ∀ t : Fin cfg0.N, win0_6.index t (0 : Fin 1) = 0 := (by decide +kernel : ∀ t : Fin grid0.N, _)
private theorem index_p : ∀ t : Fin cfg0.N, win0_7.index t (0 : Fin 3) = 0 ∧ win0_7.index t (1 : Fin 3) = 0 ∧ win0_7.index t (2 : Fin 3) = 0 :=
  (by decide +kernel : ∀ t : Fin grid0.N, _)
private theorem index_m : ∀ t : Fin cfg0.N, win0_8.index t (0 : Fin 2) = 0 ∧ win0_8.index t (1 : Fin 2) = 0 :=
  (by decide +kernel : ∀ t : Fin grid0.N, _)

/-- The constant's 512 words, row-major over 8 heads by 64 channels: the pattern of the number one exactly where the
    channel `i % 64` belongs to the head `i / 64`, the pattern of zero elsewhere. -/
private theorem lit0_eq : ∀ i : Fin 512, lit0 i = if (i.val % 64) / 8 = i.val / 64 then 0x3F800000#32 else 0#32 := by decide +kernel

/-- Grid point `t = 16 bi + gi` stages rows `16 gi … 16 gi + 15` of batch element `bi`. -/
theorem blkX_apply (c : Dev nD) (t : Fin cfg0.N) (bi : Fin 8) (gi : Fin 16) (ht : t.val = 16 * bi.val + gi.val)
    (r : Fin 16) (col : Fin 256) (ch : Fin 64) :
    blkX m c t (ix4 0 r col ch) = argX m c (ix4 bi (⟨16 * gi.val + r.val, by omega⟩ : Fin 256) col ch) := by
  obtain ⟨i0, i1, i2, i3⟩ := index_x t
  show iblk m c 0 t (ix4 0 r col ch) = _
  unfold iblk
  rw [View.read_apply]
  show V m c main_arg0 (((cfg0.win 0).blk t).view.emb (ix4 0 r col ch)) = _
  rw [V_main_arg0]
  congr 1
  funext a
  apply Fin.ext
  match a with
  | ⟨0, _⟩ => show win0_0.index t (0 : Fin 4) * 1 + 1 * 0 = bi.val; rw [i0]; omega
  | ⟨1, _⟩ => show win0_0.index t (1 : Fin 4) * 16 + 1 * r.val = 16 * gi.val + r.val; rw [i1]; omega
  | ⟨2, _⟩ => show win0_0.index t (2 : Fin 4) * 256 + 1 * col.val = col.val; rw [i2]; omega
  | ⟨3, _⟩ => show win0_0.index t (3 : Fin 4) * 64 + 1 * ch.val = ch.val; rw [i3]; omega

/-- The weight windows hold rows `64 off …` of the weight, transposed, at every point. -/
theorem blkWq_apply (c : Dev nD) (t : Fin cfg0.N) (c' d : Fin 64) : blkWq m c t (ix2 c' d) = argW m c (ix2 (wRow 0 d) c') := by
  have e : (V m c main_v4 : S64x64.Idx → EReal) = truncf (F := Ideal) .bf16 (transpose S64x64 [1, 0] (extractStridedSlice S64x64 ![0, 0] (m ((c : Thread nD τ).loc main_arg1)) slices_S192x64_S64x64_0_0) transposes_S64x64_S64x64_1_0) bitsLt_bf16_f32 := by
    dsimp only [Gen.V, Gen.hostOps0]; after_results
  obtain ⟨i0, i1⟩ := index_wq t
  show iblk m c 1 t (ix2 c' d) = _
  unfold iblk
  rw [View.read_apply]
  show V m c main_v4 (((cfg0.win 1).blk t).view.emb (ix2 c' d)) = _
  rw [e, truncf_apply]
  refine (transpose_apply [1, 0] _ transposes_S64x64_S64x64_1_0 _ (ix2 d c') ?_).trans ?_
  · intro b
    match b with
    | ⟨0, _⟩ => show c'.val = win0_1.index t (0 : Fin 2) * 64 + 1 * c'.val; rw [i0]; omega
    | ⟨1, _⟩ => show d.val = win0_1.index t (1 : Fin 2) * 64 + 1 * d.val; rw [i1]; omega
  · refine extractStridedSlice_apply ![0, 0] _ slices_S192x64_S64x64_0_0 _ (ix2 (wRow 0 d) c') ?_
    intro a
    match a with
    | ⟨0, _⟩ => show 64 * 0 + d.val = 0 + d.val; omega
    | ⟨1, _⟩ => show c'.val = 0 + c'.val; omega
theorem blkWk_apply (c : Dev nD) (t : Fin cfg0.N) (c' d : Fin 64) : blkWk m c t (ix2 c' d) = argW m c (ix2 (wRow 1 d) c') := by
  have e : (V m c main_v6 : S64x64.Idx → EReal) = truncf (F := Ideal) .bf16 (transpose S64x64 [1, 0] (extractStridedSlice S64x64 ![64, 0] (m ((c : Thread nD τ).loc main_arg1)) slices_S192x64_S64x64_64_0) transposes_S64x64_S64x64_1_0) bitsLt_bf16_f32 := by
    dsimp only [Gen.V, Gen.hostOps0]; after_results
  obtain ⟨i0, i1⟩ := index_wk t
  show iblk m c 2 t (ix2 c' d) = _
  unfold iblk
  rw [View.read_apply]
  show V m c main_v6 (((cfg0.win 2).blk t).view.emb (ix2 c' d)) = _
  rw [e, truncf_apply]
  refine (transpose_apply [1, 0] _ transposes_S64x64_S64x64_1_0 _ (ix2 d c') ?_).trans ?_
  · intro b
    match b with
    | ⟨0, _⟩ => show c'.val = win0_2.index t (0 : Fin 2) * 64 + 1 * c'.val; rw [i0]; omega
    | ⟨1, _⟩ => show d.val = win0_2.index t (1 : Fin 2) * 64 + 1 * d.val; rw [i1]; omega
  · refine extractStridedSlice_apply ![64, 0] _ slices_S192x64_S64x64_64_0 _ (ix2 (wRow 1 d) c') ?_
    intro a
    match a with
    | ⟨0, _⟩ => show 64 * 1 + d.val = 64 + d.val; omega
    | ⟨1, _⟩ => show c'.val = 0 + c'.val; omega
theorem blkWv_apply (c : Dev nD) (t : Fin cfg0.N) (c' d : Fin 64) : blkWv m c t (ix2 c' d) = argW m c (ix2 (wRow 2 d) c') := by
  have e : (V m c main_v8 : S64x64.Idx → EReal) = truncf (F := Ideal) .bf16 (transpose S64x64 [1, 0] (extractStridedSlice S64x64 ![128, 0] (m ((c : Thread nD τ).loc main_arg1)) slices_S192x64_S64x64_128_0) transposes_S64x64_S64x64_1_0) bitsLt_bf16_f32 := by
    dsimp only [Gen.V, Gen.hostOps0]; after_results
  obtain ⟨i0, i1⟩ := index_wv t
  show iblk m c 3 t (ix2 c' d) = _
  unfold iblk
  rw [View.read_apply]
  show V m c main_v8 (((cfg0.win 3).blk t).view.emb (ix2 c' d)) = _
  rw [e, truncf_apply]
  refine (transpose_apply [1, 0] _ transposes_S64x64_S64x64_1_0 _ (ix2 d c') ?_).trans ?_
  · intro b
    match b with
    | ⟨0, _⟩ => show c'.val = win0_3.index t (0 : Fin 2) * 64 + 1 * c'.val; rw [i0]; omega
    | ⟨1, _⟩ => show d.val = win0_3.index t (1 : Fin 2) * 64 + 1 * d.val; rw [i1]; omega
  · refine extractStridedSlice_apply ![128, 0] _ slices_S192x64_S64x64_128_0 _ (ix2 (wRow 2 d) c') ?_
    intro a
    match a with
    | ⟨0, _⟩ => show 64 * 2 + d.val = 128 + d.val; omega
    | ⟨1, _⟩ => show c'.val = 0 + c'.val; omega

/-- The bias windows hold entries `64 off …` of the bias. -/
theorem blkBq_apply (c : Dev nD) (t : Fin cfg0.N) (d : Fin 64) : blkBq m c t (ix1 d) = argB m c (ix1 (wRow 0 d)) := by
  have e : (V m c main_v9 : S64.Idx → EReal) = extractStridedSlice S64 ![0] (m ((c : Thread nD τ).loc main_arg2)) slices_S192_S64_0 := by
    dsimp only [Gen.V, Gen.hostOps0]; after_results
  show iblk m c 4 t (ix1 d) = _
  unfold iblk
  rw [View.read_apply]
  show V m c main_v9 (((cfg0.win 4).blk t).view.emb (ix1 d)) = _
  rw [e]
  refine extractStridedSlice_apply ![0] _ slices_S192_S64_0 _ (ix1 (wRow 0 d)) ?_
  intro a
  match a with
  | ⟨0, _⟩ =>
    show 64 * 0 + d.val = 0 + (win0_4.index t (0 : Fin 1) * 64 + 1 * d.val)
    rw [index_bq]; omega
theorem blkBk_apply (c : Dev nD) (t : Fin cfg0.N) (d : Fin 64) : blkBk m c t (ix1 d) = argB m c (ix1 (wRow 1 d)) := by
  have e : (V m c main_v10 : S64.Idx → EReal) = extractStridedSlice S64 ![64] (m ((c : Thread nD τ).loc main_arg2)) slices_S192_S64_64 := by
    dsimp only [Gen.V, Gen.hostOps0]; after_results
  show iblk m c 5 t (ix1 d) = _
  unfold iblk
  rw [View.read_apply]
  show V m c main_v10 (((cfg0.win 5).blk t).view.emb (ix1 d)) = _
  rw [e]
  refine extractStridedSlice_apply ![64] _ slices_S192_S64_64 _ (ix1 (wRow 1 d)) ?_
  intro a
  match a with
  | ⟨0, _⟩ =>
    show 64 * 1 + d.val = 64 + (win0_5.index t (0 : Fin 1) * 64 + 1 * d.val)
    rw [index_bk]; omega
theorem blkBv_apply (c : Dev nD) (t : Fin cfg0.N) (d : Fin 64) : blkBv m c t (ix1 d) = argB m c (ix1 (wRow 2 d)) := by
  have e : (V m c main_v11 : S64.Idx → EReal) = extractStridedSlice S64 ![128] (m ((c : Thread nD τ).loc main_arg2)) slices_S192_S64_128 := by
    dsimp only [Gen.V, Gen.hostOps0]; after_results
  show iblk m c 6 t (ix1 d) = _
  unfold iblk
  rw [View.read_apply]
  show V m c main_v11 (((cfg0.win 6).blk t).view.emb (ix1 d)) = _
  rw [e]
  refine extractStridedSlice_apply ![128] _ slices_S192_S64_128 _ (ix1 (wRow 2 d)) ?_
  intro a
  match a with
  | ⟨0, _⟩ =>
    show 64 * 2 + d.val = 128 + (win0_6.index t (0 : Fin 1) * 64 + 1 * d.val)
    rw [index_bv]; omega

/-- The positional-bias window holds the bias with its unit axis dropped. -/
theorem blkP_apply (c : Dev nD) (t : Fin cfg0.N) (h : Fin 8) (i j : Fin 64) : blkP m c t (ix3 h i j) = argP m c (ix4 0 h i j) := by
  have e : (V m c main_v12 : S8x64x64.Idx → EReal) = shapeCast S8x64x64 (m ((c : Thread nD τ).loc main_arg3)) shapeCasts_S1x8x64x64_S8x64x64 := by
    dsimp only [Gen.V, Gen.hostOps0]; after_results; rfl
  obtain ⟨i0, i1, i2⟩ := index_p t
  show iblk m c 7 t (ix3 h i j) = _
  unfold iblk
  rw [View.read_apply]
  show V m c main_v12 (((cfg0.win 7).blk t).view.emb (ix3 h i j)) = _
  rw [e]
  refine shapeCast_apply _ shapeCasts_S1x8x64x64_S8x64x64 _ (ix4 0 h i j) ?_
  rw [Shape.rowMajor_val_four, Shape.rowMajor_val_three]
  show ((0 * 8 + h.val) * 64 + i.val) * 64 + j.val
    = ((win0_7.index t (0 : Fin 3) * 8 + 1 * h.val) * 64 + (win0_7.index t (1 : Fin 3) * 64 + 1 * i.val)) * 64 + (win0_7.index t (2 : Fin 3) * 64 + 1 * j.val)
  rw [i0, i1, i2]; omega

/-- The mask window holds 1 exactly on each head's own channels. -/
theorem blkM_mask (c : Dev nD) (t : Fin cfg0.N) : IsHeadMask (fun h c' => blkM m c t (ix2 h c')) := by
  have e : (V m c main_cst : S8x64.Idx → EReal) = fun i => Ideal.ofBits .f32 (lit0 (S8x64.rowMajor i)) := by
    dsimp only [Gen.V, Gen.hostOps0]; after_results; rfl
  obtain ⟨i0, i1⟩ := index_m t
  intro h c'
  show iblk m c 8 t (ix2 h c') = _
  unfold iblk
  rw [View.read_apply]
  show V m c main_cst (((cfg0.win 8).blk t).view.emb (ix2 h c')) = _
  rw [e]
  show Ideal.ofBits .f32 (lit0 (S8x64.rowMajor (((cfg0.win 8).blk t).view.emb (ix2 h c')))) = _
  have hp : S8x64.rowMajor (((cfg0.win 8).blk t).view.emb (ix2 h c')) = (⟨64 * h.val + c'.val, by omega⟩ : Fin 512) := by
    apply Fin.ext
    rw [Shape.rowMajor_val_two]
    show (win0_8.index t (0 : Fin 2) * 8 + 1 * h.val) * 64 + (win0_8.index t (1 : Fin 2) * 64 + 1 * c'.val) = 64 * h.val + c'.val
    rw [i0, i1]; omega
  rw [hp, lit0_eq]
  have h1 : (64 * h.val + c'.val) % 64 / 8 = c'.val / 8 := by omega
  have h2 : (64 * h.val + c'.val) / 64 = h.val := by omega
  show Ideal.ofBits .f32 (if (64 * h.val + c'.val) % 64 / 8 = (64 * h.val + c'.val) / 64 then 0x3F800000#32 else 0#32) = _
  rw [h1, h2]
  by_cases hc : c'.val / 8 = h.val
  · rw [if_pos hc, if_pos hc]; exact Ideal.ofBits_one_f32
  · rw [if_neg hc, if_neg hc]; exact Ideal.ofBits_zero_f32

end Cert.KernelIdeal.Entry

end
-- ==== Proof.Final.lean ====
/-
  From the blocks to the array: every grid point writes back the restriction of ONE whole-array function, the
  specification `G` of the argument arrays, to its block of 64 windows; the 128 blocks tile the 8192 windows.
-/
import proofs.«411514_j20822001451573_3_alg».proof.Proof.Gen.KernelIdeal.Value
import proofs.«411514_j20822001451573_3_alg».proof.Proof.Spec
import proofs.«411514_j20822001451573_3_alg».proof.Proof.Body
import proofs.«411514_j20822001451573_3_alg».proof.Proof.Entry

noncomputable section

namespace Cert.KernelIdeal.Final

open Cert.KernelIdeal Cert.KernelIdeal.Gen Cert.KernelIdeal.Entry Cert.WinAttn Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The specification at the launched argument arrays. -/
abbrev spec (c : Dev nD) : Vec Ideal S8192x64x64 .f32 := G (argX m c) (argW m c) (argB m c) (argP m c)

/-- The grid has 8 x 16 = 128 points. -/
private theorem point_lt (t : Fin cfg0.N) : t.val < 128 := by
  have h := t.isLt
  have e : cfg0.N = 128 := N_0
  omega

/-- Grid point `t = 16 bi + gi` stages image rows `16 gi …` of batch element `bi`, and window `n = 64 t + w` is
    window `w` of that band: batch `n / 1024 = t / 16`, window row `(n % 1024) / 32 = 2 (t % 16) + w / 32`, window
    column `n % 32 = w % 32`. So the band's entry for window `w` is the image's entry for window `n`. -/
private theorem winBand_eq (c : Dev nD) (t : Fin cfg0.N) (w s ch : Fin 64) (n : Fin 8192) (hn : n.val = 64 * t.val + w.val) :
    winBand (blkX m c t) w s ch = win (argX m c) n s ch := by
  have ht := point_lt t
  unfold winBand win
  rw [blkX_apply m c t ⟨t.val / 16, by omega⟩ ⟨t.val % 16, by omega⟩ (by show t.val = 16 * (t.val / 16) + t.val % 16; omega)]
  have hw := w.isLt
  have hs := s.isLt
  congr 1
  funext a
  match a with
  | ⟨0, _⟩ => apply Fin.ext; show t.val / 16 = n.val / 1024; omega
  | ⟨1, _⟩ => apply Fin.ext; show 16 * (t.val % 16) + (8 * (w.val / 32) + s.val / 8) = 8 * ((n.val % 1024) / 32) + s.val / 8; omega
  | ⟨2, _⟩ => apply Fin.ext; show 8 * (w.val % 32) + s.val % 8 = 8 * (n.val % 32) + s.val % 8; omega
  | ⟨3, _⟩ => rfl

/-- The band's window `w` at grid point `t` is window `64 t + w` of the image: the staged projection is the whole-array one. -/
theorem projBand_q (c : Dev nD) (t : Fin cfg0.N) (w s d : Fin 64) (n : Fin 8192) (hn : n.val = 64 * t.val + w.val) :
    projBand (blkX m c t) (blkWq m c t) (blkBq m c t) w s d = proj (argX m c) (argW m c) (argB m c) 0 n s d := by
  unfold projBand proj
  rw [blkBq_apply m c t d]
  congr 1
  refine Finset.sum_congr rfl fun ch _ => ?_
  rw [winBand_eq m c t w s ch n hn, blkWq_apply m c t ch d]
theorem projBand_k (c : Dev nD) (t : Fin cfg0.N) (w s d : Fin 64) (n : Fin 8192) (hn : n.val = 64 * t.val + w.val) :
    projBand (blkX m c t) (blkWk m c t) (blkBk m c t) w s d = proj (argX m c) (argW m c) (argB m c) 1 n s d := by
  unfold projBand proj
  rw [blkBk_apply m c t d]
  congr 1
  refine Finset.sum_congr rfl fun ch _ => ?_
  rw [winBand_eq m c t w s ch n hn, blkWk_apply m c t ch d]
theorem projBand_v (c : Dev nD) (t : Fin cfg0.N) (w s d : Fin 64) (n : Fin 8192) (hn : n.val = 64 * t.val + w.val) :
    projBand (blkX m c t) (blkWv m c t) (blkBv m c t) w s d = proj (argX m c) (argW m c) (argB m c) 2 n s d := by
  unfold projBand proj
  rw [blkBv_apply m c t d]
  congr 1
  refine Finset.sum_congr rfl fun ch _ => ?_
  rw [winBand_eq m c t w s ch n hn, blkWv_apply m c t ch d]

/-- The output's block index at grid point `t` is `(t, 0, 0)`: point `t` owns windows `64 t … 64 t + 63`, whole. -/
private theorem out_index : ∀ t : Fin cfg0.N, win0_9.index t (0 : Fin 3) = t.val ∧ win0_9.index t (1 : Fin 3) = 0 ∧ win0_9.index t (2 : Fin 3) = 0 :=
  (by decide +kernel : ∀ t : Fin grid0.N, _)

/-- What the body leaves at window `w`, position `i`, channel `ch` of the band of grid point `t` is the specification
    at window `64 t + w`: the attention core of the three whole-array projections of that window. -/
private theorem out_point (c : Dev nD) (t : Fin cfg0.N) (w i ch : Fin 64) (n : Fin 8192) (hn : n.val = 64 * t.val + w.val) :
    out0_9 (blkX m c t) (blkWq m c t) (blkWk m c t) (blkWv m c t) (blkBq m c t) (blkBk m c t) (blkBv m c t) (blkP m c t) (blkM m c t) (ix3 w i ch)
      = spec m c (ix3 n i ch) := by
  rw [Body.out_apply (blkX m c t) (blkWq m c t) (blkWk m c t) (blkWv m c t) (blkBq m c t) (blkBk m c t) (blkBv m c t) (blkP m c t) (blkM m c t) (blkM_mask m c t) w i ch]
  show _ = core (fun i d => proj (argX m c) (argW m c) (argB m c) 0 n i d * scale) (proj (argX m c) (argW m c) (argB m c) 1 n) (proj (argX m c) (argW m c) (argB m c) 2 n)
    (fun h i j => argP m c (ix4 0 h i j)) i ch
  have eq : (fun i d => projBand (blkX m c t) (blkWq m c t) (blkBq m c t) w i d * scale) = fun i d => proj (argX m c) (argW m c) (argB m c) 0 n i d * scale :=
    funext fun i => funext fun d => by rw [projBand_q m c t w i d n hn]
  have ek : projBand (blkX m c t) (blkWk m c t) (blkBk m c t) w = proj (argX m c) (argW m c) (argB m c) 1 n :=
    funext fun i => funext fun d => projBand_k m c t w i d n hn
  have ev : projBand (blkX m c t) (blkWv m c t) (blkBv m c t) w = proj (argX m c) (argW m c) (argB m c) 2 n :=
    funext fun i => funext fun d => projBand_v m c t w i d n hn
  have ep : (fun h i j => blkP m c t (ix3 h i j)) = fun h i j => argP m c (ix4 0 h i j) :=
    funext fun h => funext fun i => funext fun j => blkP_apply m c t h i j
  rw [eq, ek, ev, ep]

/-- A band of 64 windows that agrees, window by window, with windows `64 t … 64 t + 63` of a whole array is that array
    read through grid point `t`'s block: the block's window `w` sits at `t * 64 + w`, its position and channel axes whole. -/
private theorem cut_eq_read (t : Fin cfg0.N) (X : Vec Ideal S64x64x64 .f32) (A : Vec Ideal S8192x64x64 .f32)
    (h : ∀ (w i ch : Fin 64) (n : Fin 8192), n.val = 64 * t.val + w.val → X (ix3 w i ch) = A (ix3 n i ch)) :
    (cfg0.win 9).cut (grid0.coords t) X = ((cfg0.win 9).blk t).view.read (Elt Ideal) A := by
  funext j
  obtain ⟨e0, e1, e2⟩ := out_index t
  have ht := point_lt t
  have hj0 : (j 0).val < 64 := (j 0).isLt
  have hj1 : (j 1).val < 64 := (j 1).isLt
  have hj2 : (j 2).val < 64 := (j 2).isLt
  show X ((cfg0.win 9).xinj (grid0.coords t) j) = A (((cfg0.win 9).blk t).view.emb j)
  have ej : (cfg0.win 9).xinj (grid0.coords t) j = ix3 (⟨(j 0).val, hj0⟩ : Fin 64) (⟨(j 1).val, hj1⟩ : Fin 64) (⟨(j 2).val, hj2⟩ : Fin 64) := by
    funext a
    match a with
    | ⟨0, _⟩ => rfl
    | ⟨1, _⟩ => rfl
    | ⟨2, _⟩ => rfl
  rw [ej, h ⟨(j 0).val, hj0⟩ ⟨(j 1).val, hj1⟩ ⟨(j 2).val, hj2⟩ ⟨64 * t.val + (j 0).val, by omega⟩ rfl]
  congr 1
  funext a
  apply Fin.ext
  match a with
  | ⟨0, _⟩ => show 64 * t.val + (j 0).val = win0_9.index t (0 : Fin 3) * 64 + 1 * (j 0).val; omega
  | ⟨1, _⟩ => show (j 1).val = win0_9.index t (1 : Fin 3) * 64 + 1 * (j 1).val; omega
  | ⟨2, _⟩ => show (j 2).val = win0_9.index t (2 : Fin 3) * 64 + 1 * (j 2).val; omega

/-- What grid point `t` writes back is the specification read through the point's block. -/
theorem flushed_eq (c : Dev nD) (t : Fin cfg0.N) :
    (dats m 0 c).flushed 9 t = ((cfg0.win 9).blk t).view.read (Elt Ideal) (spec m c) := by
  rw [Value.flushed9]
  exact cut_eq_read t (out0_9 (blkX m c t) (blkWq m c t) (blkWk m c t) (blkWv m c t) (blkBq m c t) (blkBk m c t) (blkBv m c t) (blkP m c t) (blkM m c t))
    (spec m c) (fun w i ch n hn => out_point m c t w i ch n hn)

/-- An index of the array is in grid point `t`'s block iff each coordinate is in the block's range on its axis. -/
private theorem mem_blk (t : Fin cfg0.N) (i : S8192x64x64.Idx) :
    i ∈ ((cfg0.win 9).blk t).view.set ↔ ∀ a : Fin 3, win0_9.index t a * S64x64x64.size a ≤ (i a).val ∧ (i a).val < win0_9.index t a * S64x64x64.size a + S64x64x64.size a := by
  show i ∈ ((View.whole main_v13).slice (win0_9.rect t)).set ↔ _
  rw [View.set_slice_whole, Rect.mem_set_unit]
  exact Iff.rfl

/-- After the last grid point the output array is the specification. -/
theorem final (c : Dev nD) : (dats m 0 c).arrAt 9 cfg0.N = spec m c :=
  (dats m 0 c).arrAt_eq_of_cover 9 (spec m c) (fun t _ => flushed_eq m c t) fun i => by
    have hi0 : (i 0).val < 8192 := (i 0).isLt
    have hi1 : (i 1).val < 64 := (i 1).isLt
    have hi2 : (i 2).val < 64 := (i 2).isLt
    have hlt : (i 0).val / 64 < cfg0.N := by rw [show cfg0.N = 128 from N_0]; omega
    obtain ⟨e0, e1, e2⟩ := out_index ⟨(i 0).val / 64, hlt⟩
    have e0' : win0_9.index ⟨(i 0).val / 64, hlt⟩ (0 : Fin 3) = (i 0).val / 64 := e0
    refine ⟨⟨(i 0).val / 64, hlt⟩, flush0_9 _, ?_⟩
    rw [mem_blk]
    intro a
    match a with
    | ⟨0, _⟩ => show win0_9.index ⟨(i 0).val / 64, hlt⟩ (0 : Fin 3) * 64 ≤ (i 0).val ∧ (i 0).val < win0_9.index ⟨(i 0).val / 64, hlt⟩ (0 : Fin 3) * 64 + 64; omega
    | ⟨1, _⟩ => show win0_9.index ⟨(i 0).val / 64, hlt⟩ (1 : Fin 3) * 64 ≤ (i 1).val ∧ (i 1).val < win0_9.index ⟨(i 0).val / 64, hlt⟩ (1 : Fin 3) * 64 + 64; omega
    | ⟨2, _⟩ => show win0_9.index ⟨(i 0).val / 64, hlt⟩ (2 : Fin 3) * 64 ≤ (i 2).val ∧ (i 2).val < win0_9.index ⟨(i 0).val / 64, hlt⟩ (2 : Fin 3) * 64 + 64; omega

/-- The kernel's run: the result array ends at the specification of the arguments, the arguments unchanged. -/
theorem run : θ_run defs (onTc (τ := τ) (main (F := Ideal))) ⟨m, fun _ => 0, ρ⟩ fun r => ∀ c : Dev nD,
      r.2.mem ((c : Thread nD τ).loc main_v13) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Final

end
-- ==== Proof.RefValue.lean ====
/-
  The reference's result, read index by index through its operations, is the specification `G` of its arguments.
-/
import proofs.«411514_j20822001451573_3_alg».proof.Proof.Gen.ReferenceIdeal.Read
import proofs.«411514_j20822001451573_3_alg».proof.Proof.Spec
import Idealize.ShloMosaic.Lib.ValueIdxRank6
import Idealize.ShloMosaic.PureOps.Reduce

noncomputable section

namespace Cert.ReferenceIdeal.RefValue

open Cert.ReferenceIdeal Cert.ReferenceIdeal.Gen Cert.ReferenceIdeal.Read Cert.WinAttn Idealize.ShloMosaic Idealize.ShloMosaic.TcCoe Idealize.SL.Sem Idealize.ShloMosaic.ValueIdx
open scoped BigOperators

/-- The image cut into windows: window `mm = 32 hh + ww` of batch element `b` holds at position `s = 8 i + j` the image
    row `8 hh + i` and column `8 ww + j`. -/
private theorem v2_at (x : (⟨S8x256x256x64, .f32⟩ : BufTy).Contents (Elt Ideal)) (b : Fin 8) (mm : Fin 1024) (s c : Fin 64) :
    val_main_v2 (F := Ideal) x (ix4 b mm s c)
      = x (ix4 b (⟨8 * (mm.val / 32) + s.val / 8, by omega⟩ : Fin 256) (⟨8 * (mm.val % 32) + s.val % 8, by omega⟩ : Fin 256) c) := by
  have hb := b.isLt; have hm := mm.isLt; have hs := s.isLt; have hc := c.isLt
  unfold val_main_v2
  rw [shapeCast_apply (val_main_v1 (F := Ideal) x) shapeCasts_S8x32x32x8x8x64_S8x1024x64x64 (ix4 b mm s c)
    (ix6 b (⟨mm.val / 32, by omega⟩ : Fin 32) (⟨mm.val % 32, by omega⟩ : Fin 32) (⟨s.val / 8, by omega⟩ : Fin 8) (⟨s.val % 8, by omega⟩ : Fin 8) c)
    (by rw [Shape.rowMajor_val_six, Shape.rowMajor_val_four]
        show ((((b.val * 32 + mm.val / 32) * 32 + mm.val % 32) * 8 + s.val / 8) * 8 + s.val % 8) * 64 + c.val
          = ((b.val * 1024 + mm.val) * 64 + s.val) * 64 + c.val
        omega)]
  rw [val_main_v1_apply]
  unfold val_main_v0
  exact shapeCast_apply x shapeCasts_S8x256x256x64_S8x32x8x32x8x64 _ _
    (by rw [Shape.rowMajor_val_six, Shape.rowMajor_val_four]
        show ((b.val * 256 + (8 * (mm.val / 32) + s.val / 8)) * 256 + (8 * (mm.val % 32) + s.val % 8)) * 64 + c.val
          = ((((b.val * 32 + mm.val / 32) * 8 + s.val / 8) * 32 + mm.val % 32) * 8 + s.val % 8) * 64 + c.val
        omega)

/-- The three projections before they are split: output column `d` of the 192 is the dot of the window's position with
    row `d` of the weight, plus the bias at `d`. -/
private theorem v6_at (x : (⟨S8x256x256x64, .f32⟩ : BufTy).Contents (Elt Ideal)) (W : (⟨S192x64, .f32⟩ : BufTy).Contents (Elt Ideal))
    (b : (⟨S192, .f32⟩ : BufTy).Contents (Elt Ideal)) (a : Fin 8) (m : Fin 1024) (s : Fin 64) (d : Fin 192) :
    val_main_v6 (F := Ideal) x W b (ix4 a m s d)
      = (∑ c : Fin 64, val_main_v2 (F := Ideal) x (ix4 a m s c) * W (ix2 d c)) + b (ix1 d) := by
  rw [val_main_v6_apply, val_main_v3_apply, val_main_v5_apply, val_main_v4_apply, Ideal.addf_def]
  have e1 : ∀ k : Fin 64, lidx_main_v3 (ix4 a m s d) k = ix4 a m s k := fun k => by
    funext t; fin_cases t <;> rfl
  have e2 : ∀ k : Fin 64, ridx_main_v3 (ix4 a m s d) k = ix2 d k := fun k => by
    funext t; fin_cases t <;> rfl
  have e3 : idx_main_v4 (idx_main_v5 (ix4 a m s d)) = ix1 d := by
    funext t; fin_cases t; rfl
  simp only [e1, e2, e3]

/-- Head `h`, channel `e` of the queries is column `8 h + e` of the projection. -/
private theorem q_at (x : (⟨S8x256x256x64, .f32⟩ : BufTy).Contents (Elt Ideal)) (W : (⟨S192x64, .f32⟩ : BufTy).Contents (Elt Ideal))
    (b : (⟨S192, .f32⟩ : BufTy).Contents (Elt Ideal)) (a : Fin 8) (m : Fin 1024) (h : Fin 8) (s : Fin 64) (e : Fin 8) :
    val_main_v11 (F := Ideal) x W b (ix5 a m h s e)
      = val_main_v6 (F := Ideal) x W b (ix4 a m s (⟨8 * h.val + e.val, by omega⟩ : Fin 192)) := by
  have ha := a.isLt; have hm := m.isLt; have hh := h.isLt; have hs := s.isLt; have he := e.isLt
  rw [val_main_v11_apply, val_main_v10_apply, val_main_v7_apply]
  refine congrArg _ (funext fun t => Fin.ext ?_)
  fin_cases t
  · show (((((a.val * 1024 + m.val) * 64 + s.val) * 8 + h.val) * 8 + e.val) / 4194304) = a.val; omega
  · show (((((a.val * 1024 + m.val) * 64 + s.val) * 8 + h.val) * 8 + e.val) / 4096 % 1024) = m.val; omega
  · show (((((a.val * 1024 + m.val) * 64 + s.val) * 8 + h.val) * 8 + e.val) / 64 % 64) = s.val; omega
  · show (((((a.val * 1024 + m.val) * 64 + s.val) * 8 + h.val) * 8 + e.val) % 64) = 8 * h.val + e.val; omega

/-- Head `h`, channel `e` of the keys is column `64 + 8 h + e` of the projection. -/
private theorem k_at (x : (⟨S8x256x256x64, .f32⟩ : BufTy).Contents (Elt Ideal)) (W : (⟨S192x64, .f32⟩ : BufTy).Contents (Elt Ideal))
    (b : (⟨S192, .f32⟩ : BufTy).Contents (Elt Ideal)) (a : Fin 8) (m : Fin 1024) (h : Fin 8) (s : Fin 64) (e : Fin 8) :
    val_main_v13 (F := Ideal) x W b (ix5 a m h s e)
      = val_main_v6 (F := Ideal) x W b (ix4 a m s (⟨64 + (8 * h.val + e.val), by omega⟩ : Fin 192)) := by
  have ha := a.isLt; have hm := m.isLt; have hh := h.isLt; have hs := s.isLt; have he := e.isLt
  rw [val_main_v13_apply, val_main_v12_apply, val_main_v8_apply]
  refine congrArg _ (funext fun t => Fin.ext ?_)
  fin_cases t
  · show (((((a.val * 1024 + m.val) * 64 + s.val) * 8 + h.val) * 8 + e.val) / 4194304) = a.val; omega
  · show (((((a.val * 1024 + m.val) * 64 + s.val) * 8 + h.val) * 8 + e.val) / 4096 % 1024) = m.val; omega
  · show (((((a.val * 1024 + m.val) * 64 + s.val) * 8 + h.val) * 8 + e.val) / 64 % 64) = s.val; omega
  · show 64 + (((((a.val * 1024 + m.val) * 64 + s.val) * 8 + h.val) * 8 + e.val) % 64) = 64 + (8 * h.val + e.val); omega

/-- Head `h`, channel `e` of the values is column `128 + 8 h + e` of the projection. -/
private theorem vv_at (x : (⟨S8x256x256x64, .f32⟩ : BufTy).Contents (Elt Ideal)) (W : (⟨S192x64, .f32⟩ : BufTy).Contents (Elt Ideal))
    (b : (⟨S192, .f32⟩ : BufTy).Contents (Elt Ideal)) (a : Fin 8) (m : Fin 1024) (h : Fin 8) (s : Fin 64) (e : Fin 8) :
    val_main_v15 (F := Ideal) x W b (ix5 a m h s e)
      = val_main_v6 (F := Ideal) x W b (ix4 a m s (⟨128 + (8 * h.val + e.val), by omega⟩ : Fin 192)) := by
  have ha := a.isLt; have hm := m.isLt; have hh := h.isLt; have hs := s.isLt; have he := e.isLt
  rw [val_main_v15_apply, val_main_v14_apply, val_main_v9_apply]
  refine congrArg _ (funext fun t => Fin.ext ?_)
  fin_cases t
  · show (((((a.val * 1024 + m.val) * 64 + s.val) * 8 + h.val) * 8 + e.val) / 4194304) = a.val; omega
  · show (((((a.val * 1024 + m.val) * 64 + s.val) * 8 + h.val) * 8 + e.val) / 4096 % 1024) = m.val; omega
  · show (((((a.val * 1024 + m.val) * 64 + s.val) * 8 + h.val) * 8 + e.val) / 64 % 64) = s.val; omega
  · show 128 + (((((a.val * 1024 + m.val) * 64 + s.val) * 8 + h.val) * 8 + e.val) % 64) = 128 + (8 * h.val + e.val); omega

/-- For window `n` of the 8192 the projection's column `64 off + d` is the specification's `proj`. -/
private theorem proj_at (x : (⟨S8x256x256x64, .f32⟩ : BufTy).Contents (Elt Ideal)) (W : (⟨S192x64, .f32⟩ : BufTy).Contents (Elt Ideal))
    (b : (⟨S192, .f32⟩ : BufTy).Contents (Elt Ideal)) (off : Fin 3) (n : Fin 8192) (s d : Fin 64) :
    val_main_v6 (F := Ideal) x W b (ix4 (winB n) (⟨n.val % 1024, by omega⟩ : Fin 1024) s (wRow off d)) = proj x W b off n s d := by
  have hn := n.isLt
  rw [v6_at]
  unfold proj win
  refine congrArg (· + _) (Finset.sum_congr rfl fun c _ => ?_)
  rw [v2_at]
  refine congrArg (· * _) (congrArg x (funext fun t => ?_))
  fin_cases t
  · rfl
  · rfl
  · exact Fin.ext (by show 8 * (n.val % 1024 % 32) + s.val % 8 = 8 * (n.val % 32) + s.val % 8; omega)
  · rfl

/-- The queries of window `n`, head `h`, channel `e`. -/
private theorem q_win (x : (⟨S8x256x256x64, .f32⟩ : BufTy).Contents (Elt Ideal)) (W : (⟨S192x64, .f32⟩ : BufTy).Contents (Elt Ideal))
    (b : (⟨S192, .f32⟩ : BufTy).Contents (Elt Ideal)) (n : Fin 8192) (h : Fin 8) (s : Fin 64) (e : Fin 8) :
    val_main_v11 (F := Ideal) x W b (ix5 (winB n) (⟨n.val % 1024, by omega⟩ : Fin 1024) h s e) = proj x W b 0 n s (chan h e) := by
  rw [q_at, ← proj_at]
  exact congrArg _ (congrArg _ (Fin.ext (by show 8 * h.val + e.val = 64 * 0 + (8 * h.val + e.val); omega)))

/-- The keys of window `n`, head `h`, channel `e`. -/
private theorem k_win (x : (⟨S8x256x256x64, .f32⟩ : BufTy).Contents (Elt Ideal)) (W : (⟨S192x64, .f32⟩ : BufTy).Contents (Elt Ideal))
    (b : (⟨S192, .f32⟩ : BufTy).Contents (Elt Ideal)) (n : Fin 8192) (h : Fin 8) (s : Fin 64) (e : Fin 8) :
    val_main_v13 (F := Ideal) x W b (ix5 (winB n) (⟨n.val % 1024, by omega⟩ : Fin 1024) h s e) = proj x W b 1 n s (chan h e) := by
  rw [k_at, ← proj_at]
  exact congrArg _ (congrArg _ (Fin.ext (by show 64 + (8 * h.val + e.val) = 64 * 1 + (8 * h.val + e.val); omega)))

/-- The values of window `n`, head `h`, channel `e`. -/
private theorem v_win (x : (⟨S8x256x256x64, .f32⟩ : BufTy).Contents (Elt Ideal)) (W : (⟨S192x64, .f32⟩ : BufTy).Contents (Elt Ideal))
    (b : (⟨S192, .f32⟩ : BufTy).Contents (Elt Ideal)) (n : Fin 8192) (h : Fin 8) (s : Fin 64) (e : Fin 8) :
    val_main_v15 (F := Ideal) x W b (ix5 (winB n) (⟨n.val % 1024, by omega⟩ : Fin 1024) h s e) = proj x W b 2 n s (chan h e) := by
  rw [vv_at, ← proj_at]
  exact congrArg _ (congrArg _ (Fin.ext (by show 128 + (8 * h.val + e.val) = 64 * 2 + (8 * h.val + e.val); omega)))

/-- A score before the softmax: the 8-channel dot of the scaled query with the key, plus the positional bias. -/
private theorem v22_at (x : (⟨S8x256x256x64, .f32⟩ : BufTy).Contents (Elt Ideal)) (W : (⟨S192x64, .f32⟩ : BufTy).Contents (Elt Ideal))
    (b : (⟨S192, .f32⟩ : BufTy).Contents (Elt Ideal)) (pos : (⟨S1x8x64x64, .f32⟩ : BufTy).Contents (Elt Ideal))
    (a : Fin 8) (m : Fin 1024) (h : Fin 8) (i j : Fin 64) :
    val_main_v22 (F := Ideal) x W b pos (ix5 a m h i j)
      = (∑ e : Fin 8, (val_main_v11 (F := Ideal) x W b (ix5 a m h i e) * scale) * val_main_v13 (F := Ideal) x W b (ix5 a m h j e))
        + pos (ix4 0 h i j) := by
  have hh := h.isLt; have hi := i.isLt; have hj := j.isLt
  rw [val_main_v22_apply, val_main_v18_apply, val_main_v21_apply, val_main_v20_apply, val_main_v19_apply, Ideal.addf_def]
  have e1 : ∀ k : Fin 8, lidx_main_v18 (ix5 a m h i j) k = ix5 a m h i k := fun k => by
    funext t; fin_cases t <;> rfl
  have e2 : ∀ k : Fin 8, ridx_main_v18 (ix5 a m h i j) k = ix5 a m h j k := fun k => by
    funext t; fin_cases t <;> rfl
  have e3 : idx_main_v19 (idx_main_v20 (idx_main_v21 (ix5 a m h i j))) = ix4 0 h i j := by
    funext t; apply Fin.ext; fin_cases t
    · rfl
    · show ((h.val * 64 + i.val) * 64 + j.val) / 4096 % 8 = h.val; omega
    · show ((h.val * 64 + i.val) * 64 + j.val) / 64 % 64 = i.val; omega
    · show ((h.val * 64 + i.val) * 64 + j.val) % 64 = j.val; omega
  simp only [e1, e2, e3]
  refine congrArg (· + _) (Finset.sum_congr rfl fun e _ => ?_)
  rw [val_main_v17_apply, val_main_v16_apply, val_main_cst_apply, Ideal.mulf_def]
  rfl

/-- The scores of window `n` are the specification's `sim` of the scaled queries, the keys and the bias. -/
private theorem sim_win (x : (⟨S8x256x256x64, .f32⟩ : BufTy).Contents (Elt Ideal)) (W : (⟨S192x64, .f32⟩ : BufTy).Contents (Elt Ideal))
    (b : (⟨S192, .f32⟩ : BufTy).Contents (Elt Ideal)) (pos : (⟨S1x8x64x64, .f32⟩ : BufTy).Contents (Elt Ideal))
    (n : Fin 8192) (h : Fin 8) (i j : Fin 64) :
    val_main_v22 (F := Ideal) x W b pos (ix5 (winB n) (⟨n.val % 1024, by omega⟩ : Fin 1024) h i j)
      = sim (fun i d => proj x W b 0 n i d * scale) (proj x W b 1 n) (fun h i j => pos (ix4 0 h i j)) h i j := by
  rw [v22_at]
  unfold sim
  simp only [q_win, k_win]

/-- The reduced index with coordinate `k` put back on the last axis. -/
private theorem lift_last (hR : S8x1024x8x64x64.Reduces [4] S8x1024x8x64) (a : Fin 8) (m : Fin 1024) (h : Fin 8) (i : Fin 64)
    (k : Fin (S8x1024x8x64x64.size 4)) : hR.lift (ix4 a m h i) k = ix5 a m h i (⟨k.val, k.isLt⟩ : Fin 64) := by
  funext c; apply Fin.ext
  fin_cases c <;> rfl

/-- The maximum of a row of scores, folded from minus infinity. -/
private theorem v23_at (x : (⟨S8x256x256x64, .f32⟩ : BufTy).Contents (Elt Ideal)) (W : (⟨S192x64, .f32⟩ : BufTy).Contents (Elt Ideal))
    (b : (⟨S192, .f32⟩ : BufTy).Contents (Elt Ideal)) (pos : (⟨S1x8x64x64, .f32⟩ : BufTy).Contents (Elt Ideal))
    (a : Fin 8) (m : Fin 1024) (h : Fin 8) (i : Fin 64) :
    val_main_v23 (F := Ideal) x W b pos (ix4 a m h i)
      = rowMax (fun k => val_main_v22 (F := Ideal) x W b pos (ix5 a m h i k)) := by
  have hR : S8x1024x8x64x64.Reduces [4] S8x1024x8x64 := by decide
  unfold val_main_v23
  refine (Host.reduce_eq_fold_single (α := Ideal .f32) FloatOps.maximumf (val_main_v22 (F := Ideal) x W b pos) (val_main_cst_0 (F := Ideal))
    reducesTo_S8x1024x8x64x64_S8x1024x8x64_d4 hR h_S_ (ix4 a m h i)).trans ?_
  have hf : (val_main_v22 (F := Ideal) x W b pos ∘ hR.lift (ix4 a m h i))
      = fun k : Fin 64 => val_main_v22 (F := Ideal) x W b pos (ix5 a m h i k) :=
    funext fun k => congrArg (val_main_v22 (F := Ideal) x W b pos) (lift_last hR a m h i k)
  unfold rowMax
  exact congrArg (fun f => Finset.fold max negInf f (Finset.univ : Finset (Fin 64))) hf

/-- One softmax weight: the exponential of the score less the row's maximum, over the row's sum of them. -/
private theorem v33_at (x : (⟨S8x256x256x64, .f32⟩ : BufTy).Contents (Elt Ideal)) (W : (⟨S192x64, .f32⟩ : BufTy).Contents (Elt Ideal))
    (b : (⟨S192, .f32⟩ : BufTy).Contents (Elt Ideal)) (pos : (⟨S1x8x64x64, .f32⟩ : BufTy).Contents (Elt Ideal))
    (a : Fin 8) (m : Fin 1024) (h : Fin 8) (i j : Fin 64) :
    val_main_v33 (F := Ideal) x W b pos (ix5 a m h i j)
      = softmaxRow (fun k => val_main_v22 (F := Ideal) x W b pos (ix5 a m h i k)) j := by
  have e25 : val_main_v25 (F := Ideal) x W b pos (ix4 a m h i)
      = rowMax (fun k => val_main_v22 (F := Ideal) x W b pos (ix5 a m h i k)) := by
    rw [val_main_v25_apply, val_main_v24_apply, val_main_cst_1_apply, v23_at, Ideal.maximumf_def]
    exact max_negInf _
  have e29 : ∀ k : Fin 64, val_main_v29 (F := Ideal) x W b pos (ix5 a m h i k)
      = Ideal.exp (val_main_v22 (F := Ideal) x W b pos (ix5 a m h i k)
          - rowMax (fun k => val_main_v22 (F := Ideal) x W b pos (ix5 a m h i k))) := fun k => by
    rw [val_main_v29_apply, val_main_v28_apply, val_main_v27_apply, val_main_v26_apply, Ideal.hostUnary_exp_def, Ideal.subf_def]
    have e : idx_main_v26 (idx_main_v27 (ix5 a m h i k)) = ix4 a m h i := by
      funext t; fin_cases t <;> rfl
    rw [e, e25]
  have e30 : val_main_v30 (F := Ideal) x W b pos (ix4 a m h i)
      = ∑ k : Fin 64, val_main_v29 (F := Ideal) x W b pos (ix5 a m h i k) := by
    rw [val_main_v30_apply, val_main_cst_2_apply, Ideal.ofBits_def, Ideal.ofBits_zero_f32, zero_add]
    refine Finset.sum_congr rfl fun k _ => congrArg _ ?_
    funext t; fin_cases t <;> rfl
  rw [val_main_v33_apply, val_main_v32_apply, val_main_v31_apply, Ideal.hostDivf_def]
  have e : idx_main_v31 (idx_main_v32 (ix5 a m h i j)) = ix4 a m h i := by
    funext t; fin_cases t <;> rfl
  rw [e, e30]
  unfold softmaxRow
  simp only [e29]

/-- A channel is channel `c % 8` of its head `c / 8`. -/
private theorem chan_headOf (c : Fin 64) : chan (headOf c) (⟨c.val % 8, by omega⟩ : Fin 8) = c :=
  Fin.ext (by show 8 * (c.val / 8) + c.val % 8 = c.val; omega)

/-- The reference's result at window `n`, position `i`, channel `c`. -/
private theorem ref_at (x : (⟨S8x256x256x64, .f32⟩ : BufTy).Contents (Elt Ideal)) (W : (⟨S192x64, .f32⟩ : BufTy).Contents (Elt Ideal))
    (b : (⟨S192, .f32⟩ : BufTy).Contents (Elt Ideal)) (pos : (⟨S1x8x64x64, .f32⟩ : BufTy).Contents (Elt Ideal))
    (n : Fin 8192) (i c : Fin 64) :
    val_main_v36 (F := Ideal) x W b pos (ix3 n i c)
      = core (fun i d => proj x W b 0 n i d * scale) (proj x W b 1 n) (proj x W b 2 n) (fun h i j => pos (ix4 0 h i j)) i c := by
  have hn := n.isLt; have hi := i.isLt; have hc := c.isLt
  rw [val_main_v36_apply, val_main_v35_apply, val_main_v34_apply]
  have e0 : idx_main_v35 (idx_main_v36 (ix3 n i c))
      = ix5 (winB n) (⟨n.val % 1024, by omega⟩ : Fin 1024) (headOf c) i (⟨c.val % 8, by omega⟩ : Fin 8) := by
    funext t; apply Fin.ext; fin_cases t
    · show ((n.val * 64 + i.val) * 64 + c.val) / 4194304 = n.val / 1024; omega
    · show ((n.val * 64 + i.val) * 64 + c.val) / 4096 % 1024 = n.val % 1024; omega
    · show ((n.val * 64 + i.val) * 64 + c.val) / 8 % 8 = c.val / 8; omega
    · show ((n.val * 64 + i.val) * 64 + c.val) / 64 % 64 = i.val; omega
    · show ((n.val * 64 + i.val) * 64 + c.val) % 8 = c.val % 8; omega
  rw [e0]
  have e1 : ∀ k : Fin 64, lidx_main_v34 (ix5 (winB n) (⟨n.val % 1024, by omega⟩ : Fin 1024) (headOf c) i (⟨c.val % 8, by omega⟩ : Fin 8)) k
      = ix5 (winB n) (⟨n.val % 1024, by omega⟩ : Fin 1024) (headOf c) i k := fun k => by
    funext t; fin_cases t <;> rfl
  have e2 : ∀ k : Fin 64, ridx_main_v34 (ix5 (winB n) (⟨n.val % 1024, by omega⟩ : Fin 1024) (headOf c) i (⟨c.val % 8, by omega⟩ : Fin 8)) k
      = ix5 (winB n) (⟨n.val % 1024, by omega⟩ : Fin 1024) (headOf c) k (⟨c.val % 8, by omega⟩ : Fin 8) := fun k => by
    funext t; fin_cases t <;> rfl
  simp only [e1, e2, v33_at, v_win, chan_headOf]
  unfold core headOut
  refine Finset.sum_congr rfl fun j _ => congrArg (· * _) ?_
  exact congrArg (fun s => softmaxRow s j) (funext fun k => sim_win x W b pos n (headOf c) i k)

/-- The reference's last stage is the specification. -/
theorem ref_eq (x : (⟨S8x256x256x64, .f32⟩ : BufTy).Contents (Elt Ideal)) (W : (⟨S192x64, .f32⟩ : BufTy).Contents (Elt Ideal))
    (b : (⟨S192, .f32⟩ : BufTy).Contents (Elt Ideal)) (pos : (⟨S1x8x64x64, .f32⟩ : BufTy).Contents (Elt Ideal)) :
    Cert.ReferenceIdeal.Read.val_main_v36 (F := Ideal) x W b pos = G x W b pos := by
  funext y
  rw [eq_ix3 y]
  exact ref_at x W b pos (y 0) (y 1) (y 2)

end Cert.ReferenceIdeal.RefValue

end
-- ==== Proof.lean ====
/-
  Windowed eight-head self-attention with an additive positional bias: the kernel against its reference, over the
  extended reals.

  The kernel walks the image in bands of 16 rows (two rows of 32 windows of 8 x 8 positions), projects each band to
  queries, keys and values by three 64 x 64 blocks of the weight, and computes every head at FULL channel width: the
  query is multiplied by a 0/1 mask of the head's 8 channels before the 64-channel dot with the keys, and the
  softmax-weighted sum of the full-width values is multiplied by the same mask and added to an accumulator that starts
  at zero. The reference reshapes the channels into 8 heads of 8 and contracts over the head's 8 channels only.
  Both are the function `Cert.WinAttn.G` of the four arguments (Proof/Spec.lean): a masked 64-term dot keeps exactly
  the head's 8 terms (a product with 0 is 0, with 1 the factor itself), and of the eight masked head outputs added from
  zero only the channel's own head survives. No law that fails at infinities is used (only sums reordered by an
  index bijection, products with 0 and 1, and `max` with minus infinity), so finiteness of the inputs is never opened.
  The scale 8^(-1/2) is the same single-precision word in both programs and is never evaluated.

  The kernel's run is read off its frame block by block (Proof/Final.lean: every grid point writes back the
  restriction of `G` to its 64 windows, and the 128 blocks tile the 8192 windows), the body's stored vector at an
  index in Proof/Heads.lean and Proof/Proj.lean, the region's windows in Proof/Entry.lean, and the reference stage by
  stage in Proof/RefValue.lean.
-/
import proofs.«411514_j20822001451573_3_alg».proof.Defs
import proofs.«411514_j20822001451573_3_alg».proof.Proof.Gen.Kernel
import proofs.«411514_j20822001451573_3_alg».proof.Proof.Gen.Kernel.Skeleton
import proofs.«411514_j20822001451573_3_alg».proof.Proof.Gen.Kernel.Launch
import proofs.«411514_j20822001451573_3_alg».proof.Proof.Gen.Kernel.Points
import proofs.«411514_j20822001451573_3_alg».proof.Proof.Gen.Kernel.Frame
import proofs.«411514_j20822001451573_3_alg».proof.Proof.Gen.KernelIdeal
import proofs.«411514_j20822001451573_3_alg».proof.Proof.Gen.KernelIdeal.Skeleton
import proofs.«411514_j20822001451573_3_alg».proof.Proof.Gen.KernelIdeal.Launch
import proofs.«411514_j20822001451573_3_alg».proof.Proof.Gen.KernelIdeal.Points
import proofs.«411514_j20822001451573_3_alg».proof.Proof.Gen.KernelIdeal.Frame
import proofs.«411514_j20822001451573_3_alg».proof.Proof.Gen.ReferenceIdeal
import proofs.«411514_j20822001451573_3_alg».proof.Proof.Gen.Pre_finite_inputs
import proofs.«411514_j20822001451573_3_alg».proof.Proof.Gen.KernelIdeal.Value
import proofs.«411514_j20822001451573_3_alg».proof.Proof.Gen.ReferenceIdeal.Run
import proofs.«411514_j20822001451573_3_alg».proof.Proof.Gen.ReferenceIdeal.Read
import proofs.«411514_j20822001451573_3_alg».proof.Proof.Final
import proofs.«411514_j20822001451573_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its generated frame. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.spec m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
